-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x32 : Shape := ⟨2, ![32768, 32]⟩
abbrev S32768x8 : Shape := ⟨2, ![32768, 8]⟩
abbrev S7x40x256 : Shape := ⟨3, ![7, 40, 256]⟩
abbrev S7x256 : Shape := ⟨2, ![7, 256]⟩
abbrev S7x256x256 : Shape := ⟨3, ![7, 256, 256]⟩
abbrev S7x256x128 : Shape := ⟨3, ![7, 256, 128]⟩
abbrev S7x128 : Shape := ⟨2, ![7, 128]⟩
abbrev S7x128x32 : Shape := ⟨3, ![7, 128, 32]⟩
abbrev S7x32 : Shape := ⟨2, ![7, 32]⟩
abbrev S32 : Shape := ⟨1, ![32]⟩
abbrev S_ : Shape := ⟨0, ![]⟩

class Facts : Prop where
  bcast_S_S32768x32 : S_.BroadcastsInDim S32768x32 (![] : Fin 0 → Fin S32768x32.rank)
  reducesTo_S32768x32_S_d0_1 : S32768x32.ReducesTo [0, 1] S_
  h_S_ : 0 < S_.numel
  bcast_S_S32768x8 : S_.BroadcastsInDim S32768x8 (![] : Fin 0 → Fin S32768x8.rank)
  reducesTo_S32768x8_S_d0_1 : S32768x8.ReducesTo [0, 1] S_
  bcast_S_S7x40x256 : S_.BroadcastsInDim S7x40x256 (![] : Fin 0 → Fin S7x40x256.rank)
  reducesTo_S7x40x256_S_d0_1_2 : S7x40x256.ReducesTo [0, 1, 2] S_
  bcast_S_S7x256 : S_.BroadcastsInDim S7x256 (![] : Fin 0 → Fin S7x256.rank)
  reducesTo_S7x256_S_d0_1 : S7x256.ReducesTo [0, 1] S_
  bcast_S_S7x256x256 : S_.BroadcastsInDim S7x256x256 (![] : Fin 0 → Fin S7x256x256.rank)
  reducesTo_S7x256x256_S_d0_1_2 : S7x256x256.ReducesTo [0, 1, 2] S_
  bcast_S_S7x256x128 : S_.BroadcastsInDim S7x256x128 (![] : Fin 0 → Fin S7x256x128.rank)
  reducesTo_S7x256x128_S_d0_1_2 : S7x256x128.ReducesTo [0, 1, 2] S_
  bcast_S_S7x128 : S_.BroadcastsInDim S7x128 (![] : Fin 0 → Fin S7x128.rank)
  reducesTo_S7x128_S_d0_1 : S7x128.ReducesTo [0, 1] S_
  bcast_S_S7x128x32 : S_.BroadcastsInDim S7x128x32 (![] : Fin 0 → Fin S7x128x32.rank)
  reducesTo_S7x128x32_S_d0_1_2 : S7x128x32.ReducesTo [0, 1, 2] S_
  bcast_S_S7x32 : S_.BroadcastsInDim S7x32 (![] : Fin 0 → Fin S7x32.rank)
  reducesTo_S7x32_S_d0_1 : S7x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg14 : FVec F S32 .f32) (main_arg15 : FVec F S32 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  main_v78

def fn_part3 {F : FTy → Type} [FloatOps F] (main_arg11 : FVec F S7x32 .f32) (main_arg12 : FVec F S7x128x32 .f32) (main_arg13 : FVec F S7x32 .f32) (main_arg14 : FVec F S32 .f32) (main_arg15 : FVec F S32 .f32) (main_v48 : IVec S_ 1) (main_v49 : FVec F S7x128x32 .f32) (main_v50 : FVec F S7x128x32 .f32) : IVec S_ 1 :=
  let main_v51 : IVec S7x128x32 1 := cmpf .olt main_v49 main_v50
  let main_c_19 : IVec S_ 1 := constantI S_ 1 1#1
  let main_v52 : IVec S_ 1 := (fun x v => Host.reduce IntOp.andi x v reducesTo_S7x128x32_S_d0_1_2 h_S_) main_v51 main_c_19
  let main_v53 : IVec S_ 1 := andi main_v48 main_v52
  let main_v54 : FVec F S7x32 .f32 := Host.absf main_arg11
  let main_cst_20 : FVec F S_ .f32 := constant S_ .f32 0x7F800000#32
  let main_v55 : FVec F S7x32 .f32 := broadcastInDim S7x32 ![] bcast_S_S7x32 main_cst_20
  let main_v56 : IVec S7x32 1 := cmpf .olt main_v54 main_v55
  let main_c_21 : IVec S_ 1 := constantI S_ 1 1#1
  let main_v57 : IVec S_ 1 := (fun x v => Host.reduce IntOp.andi x v reducesTo_S7x32_S_d0_1 h_S_) main_v56 main_c_21
  let main_v58 : IVec S_ 1 := andi main_v53 main_v57
  let main_v59 : FVec F S7x128x32 .f32 := Host.absf main_arg12
  let main_cst_22 : FVec F S_ .f32 := constant S_ .f32 0x7F800000#32
  let main_v60 : FVec F S7x128x32 .f32 := broadcastInDim S7x128x32 ![] bcast_S_S7x128x32 main_cst_22
  let main_v61 : IVec S7x128x32 1 := cmpf .olt main_v59 main_v60
  let main_c_23 : IVec S_ 1 := constantI S_ 1 1#1
  let main_v62 : IVec S_ 1 := (fun x v => Host.reduce IntOp.andi x v reducesTo_S7x128x32_S_d0_1_2 h_S_) main_v61 main_c_23
  let main_v63 : IVec S_ 1 := andi main_v58 main_v62
  let main_v64 : FVec F S7x32 .f32 := Host.absf main_arg13
  let main_cst_24 : FVec F S_ .f32 := constant S_ .f32 0x7F800000#32
  let main_v65 : FVec F S7x32 .f32 := broadcastInDim S7x32 ![] bcast_S_S7x32 main_cst_24
  let main_v66 : IVec S7x32 1 := cmpf .olt main_v64 main_v65
  let main_c_25 : IVec S_ 1 := constantI S_ 1 1#1
  let main_v67 : IVec S_ 1 := (fun x v => Host.reduce IntOp.andi x v reducesTo_S7x32_S_d0_1 h_S_) main_v66 main_c_25
  fn_part4 (F := F) main_arg14 main_arg15 main_v63 main_v67

def fn_part2 {F : FTy → Type} [FloatOps F] (main_arg7 : FVec F S7x256 .f32) (main_arg8 : FVec F S7x256x128 .f32) (main_arg9 : FVec F S7x128 .f32) (main_arg10 : FVec F S7x128x32 .f32) (main_arg11 : FVec F S7x32 .f32) (main_arg12 : FVec F S7x128x32 .f32) (main_arg13 : FVec F S7x32 .f32) (main_arg14 : FVec F S32 .f32) (main_arg15 : FVec F S32 .f32) (main_v33 : IVec S_ 1) : IVec S_ 1 :=
  let main_v34 : FVec F S7x256 .f32 := Host.absf main_arg7
  let main_cst_12 : FVec F S_ .f32 := constant S_ .f32 0x7F800000#32
  let main_v35 : FVec F S7x256 .f32 := broadcastInDim S7x256 ![] bcast_S_S7x256 main_cst_12
  let main_v36 : IVec S7x256 1 := cmpf .olt main_v34 main_v35
  let main_c_13 : IVec S_ 1 := constantI S_ 1 1#1
  let main_v37 : IVec S_ 1 := (fun x v => Host.reduce IntOp.andi x v reducesTo_S7x256_S_d0_1 h_S_) main_v36 main_c_13
  let main_v38 : IVec S_ 1 := andi main_v33 main_v37
  let main_v39 : FVec F S7x256x128 .f32 := Host.absf main_arg8
  let main_cst_14 : FVec F S_ .f32 := constant S_ .f32 0x7F800000#32
  let main_v40 : FVec F S7x256x128 .f32 := broadcastInDim S7x256x128 ![] bcast_S_S7x256x128 main_cst_14
  let main_v41 : IVec S7x256x128 1 := cmpf .olt main_v39 main_v40
  let main_c_15 : IVec S_ 1 := constantI S_ 1 1#1
  let main_v42 : IVec S_ 1 := (fun x v => Host.reduce IntOp.andi x v reducesTo_S7x256x128_S_d0_1_2 h_S_) main_v41 main_c_15
  let main_v43 : IVec S_ 1 := andi main_v38 main_v42
  let main_v44 : FVec F S7x128 .f32 := Host.absf main_arg9
  let main_cst_16 : FVec F S_ .f32 := constant S_ .f32 0x7F800000#32
  let main_v45 : FVec F S7x128 .f32 := broadcastInDim S7x128 ![] bcast_S_S7x128 main_cst_16
  let main_v46 : IVec S7x128 1 := cmpf .olt main_v44 main_v45
  let main_c_17 : IVec S_ 1 := constantI S_ 1 1#1
  let main_v47 : IVec S_ 1 := (fun x v => Host.reduce IntOp.andi x v reducesTo_S7x128_S_d0_1 h_S_) main_v46 main_c_17
  let main_v48 : IVec S_ 1 := andi main_v43 main_v47
  let main_v49 : FVec F S7x128x32 .f32 := Host.absf main_arg10
  let main_cst_18 : FVec F S_ .f32 := constant S_ .f32 0x7F800000#32
  let main_v50 : FVec F S7x128x32 .f32 := broadcastInDim S7x128x32 ![] bcast_S_S7x128x32 main_cst_18
  fn_part3 (F := F) main_arg11 main_arg12 main_arg13 main_arg14 main_arg15 main_v48 main_v49 main_v50

def fn_part1 {F : FTy → Type} [FloatOps F] (main_arg4 : FVec F S7x256x256 .f32) (main_arg5 : FVec F S7x256 .f32) (main_arg6 : FVec F S7x256x256 .f32) (main_arg7 : FVec F S7x256 .f32) (main_arg8 : FVec F S7x256x128 .f32) (main_arg9 : FVec F S7x128 .f32) (main_arg10 : FVec F S7x128x32 .f32) (main_arg11 : FVec F S7x32 .f32) (main_arg12 : FVec F S7x128x32 .f32) (main_arg13 : FVec F S7x32 .f32) (main_arg14 : FVec F S32 .f32) (main_arg15 : FVec F S32 .f32) (main_v13 : IVec S_ 1) (main_v16 : IVec S7x256 1) : IVec S_ 1 :=
  let main_c_5 : IVec S_ 1 := constantI S_ 1 1#1
  let main_v17 : IVec S_ 1 := (fun x v => Host.reduce IntOp.andi x v reducesTo_S7x256_S_d0_1 h_S_) main_v16 main_c_5
  let main_v18 : IVec S_ 1 := andi main_v13 main_v17
  let main_v19 : FVec F S7x256x256 .f32 := Host.absf main_arg4
  let main_cst_6 : FVec F S_ .f32 := constant S_ .f32 0x7F800000#32
  let main_v20 : FVec F S7x256x256 .f32 := broadcastInDim S7x256x256 ![] bcast_S_S7x256x256 main_cst_6
  let main_v21 : IVec S7x256x256 1 := cmpf .olt main_v19 main_v20
  let main_c_7 : IVec S_ 1 := constantI S_ 1 1#1
  let main_v22 : IVec S_ 1 := (fun x v => Host.reduce IntOp.andi x v reducesTo_S7x256x256_S_d0_1_2 h_S_) main_v21 main_c_7
  let main_v23 : IVec S_ 1 := andi main_v18 main_v22
  let main_v24 : FVec F S7x256 .f32 := Host.absf main_arg5
  let main_cst_8 : FVec F S_ .f32 := constant S_ .f32 0x7F800000#32
  let main_v25 : FVec F S7x256 .f32 := broadcastInDim S7x256 ![] bcast_S_S7x256 main_cst_8
  let main_v26 : IVec S7x256 1 := cmpf .olt main_v24 main_v25
  let main_c_9 : IVec S_ 1 := constantI S_ 1 1#1
  let main_v27 : IVec S_ 1 := (fun x v => Host.reduce IntOp.andi x v reducesTo_S7x256_S_d0_1 h_S_) main_v26 main_c_9
  let main_v28 : IVec S_ 1 := andi main_v23 main_v27
  let main_v29 : FVec F S7x256x256 .f32 := Host.absf main_arg6
  let main_cst_10 : FVec F S_ .f32 := constant S_ .f32 0x7F800000#32
  let main_v30 : FVec F S7x256x256 .f32 := broadcastInDim S7x256x256 ![] bcast_S_S7x256x256 main_cst_10
  let main_v31 : IVec S7x256x256 1 := cmpf .olt main_v29 main_v30
  let main_c_11 : IVec S_ 1 := constantI S_ 1 1#1
  let main_v32 : IVec S_ 1 := (fun x v => Host.reduce IntOp.andi x v reducesTo_S7x256x256_S_d0_1_2 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S32768x32 .f32) (main_arg1 : FVec F S32768x8 .f32) (main_arg2 : FVec F S7x40x256 .f32) (main_arg3 : FVec F S7x256 .f32) (main_arg4 : FVec F S7x256x256 .f32) (main_arg5 : FVec F S7x256 .f32) (main_arg6 : FVec F S7x256x256 .f32) (main_arg7 : FVec F S7x256 .f32) (main_arg8 : FVec F S7x256x128 .f32) (main_arg9 : FVec F S7x128 .f32) (main_arg10 : FVec F S7x128x32 .f32) (main_arg11 : FVec F S7x32 .f32) (main_arg12 : FVec F S7x128x32 .f32) (main_arg13 : FVec F S7x32 .f32) (main_arg14 : FVec F S32 .f32) (main_arg15 : FVec F S32 .f32) : IVec S_ 1 :=
  let main_v0 : FVec F S32768x32 .f32 := Host.absf main_arg0
  let main_cst : FVec F S_ .f32 := constant S_ .f32 0x7F800000#32
  let main_v1 : FVec F S32768x32 .f32 := broadcastInDim S32768x32 ![] bcast_S_S32768x32 main_cst
  let main_v2 : IVec S32768x32 1 := cmpf .olt main_v0 main_v1
  let main_c : IVec S_ 1 := constantI S_ 1 1#1
  let main_v3 : IVec S_ 1 := (fun x v => Host.reduce IntOp.andi x v reducesTo_S32768x32_S_d0_1 h_S_) main_v2 main_c
  let main_v4 : FVec F S32768x8 .f32 := Host.absf main_arg1
  let main_cst_0 : FVec F S_ .f32 := constant S_ .f32 0x7F800000#32
  let main_v5 : FVec F S32768x8 .f32 := broadcastInDim S32768x8 ![] bcast_S_S32768x8 main_cst_0
  let main_v6 : IVec S32768x8 1 := cmpf .olt main_v4 main_v5
  let main_c_1 : IVec S_ 1 := constantI S_ 1 1#1
  let main_v7 : IVec S_ 1 := (fun x v => Host.reduce IntOp.andi x v reducesTo_S32768x8_S_d0_1 h_S_) main_v6 main_c_1
  let main_v8 : IVec S_ 1 := andi main_v3 main_v7
  let main_v9 : FVec F S7x40x256 .f32 := Host.absf main_arg2
  let main_cst_2 : FVec F S_ .f32 := constant S_ .f32 0x7F800000#32
  let main_v10 : FVec F S7x40x256 .f32 := broadcastInDim S7x40x256 ![] bcast_S_S7x40x256 main_cst_2
  let main_v11 : IVec S7x40x256 1 := cmpf .olt main_v9 main_v10
  let main_c_3 : IVec S_ 1 := constantI S_ 1 1#1
  let main_v12 : IVec S_ 1 := (fun x v => Host.reduce IntOp.andi x v reducesTo_S7x40x256_S_d0_1_2 h_S_) main_v11 main_c_3
  let main_v13 : IVec S_ 1 := andi main_v8 main_v12
  let main_v14 : FVec F S7x256 .f32 := Host.absf main_arg3
  let main_cst_4 : FVec F S_ .f32 := constant S_ .f32 0x7F800000#32
  let main_v15 : FVec F S7x256 .f32 := broadcastInDim S7x256 ![] bcast_S_S7x256 main_cst_4
  let main_v16 : IVec S7x256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S32768x32 : Shape := ⟨2, ![32768, 32]⟩
abbrev S32768x8 : Shape := ⟨2, ![32768, 8]⟩
abbrev S7x40x256 : Shape := ⟨3, ![7, 40, 256]⟩
abbrev S7x256 : Shape := ⟨2, ![7, 256]⟩
abbrev S7x256x256 : Shape := ⟨3, ![7, 256, 256]⟩
abbrev S7x256x128 : Shape := ⟨3, ![7, 256, 128]⟩
abbrev S7x128 : Shape := ⟨2, ![7, 128]⟩
abbrev S7x128x32 : Shape := ⟨3, ![7, 128, 32]⟩
abbrev S7x32 : Shape := ⟨2, ![7, 32]⟩
abbrev S32 : Shape := ⟨1, ![32]⟩
abbrev S7x1x256 : Shape := ⟨3, ![7, 1, 256]⟩
abbrev S7x1x128 : Shape := ⟨3, ![7, 1, 128]⟩
abbrev S7x1x32 : Shape := ⟨3, ![7, 1, 32]⟩
abbrev S1x32 : Shape := ⟨2, ![1, 32]⟩
abbrev S7x32768x32 : Shape := ⟨3, ![7, 32768, 32]⟩
abbrev S2048x32 : Shape := ⟨2, ![2048, 32]⟩
abbrev S2048x8 : Shape := ⟨2, ![2048, 8]⟩
abbrev S1x40x256 : Shape := ⟨3, ![1, 40, 256]⟩
abbrev S1x1x256 : Shape := ⟨3, ![1, 1, 256]⟩
abbrev S1x256x256 : Shape := ⟨3, ![1, 256, 256]⟩
abbrev S1x256x128 : Shape := ⟨3, ![1, 256, 128]⟩
abbrev S1x1x128 : Shape := ⟨3, ![1, 1, 128]⟩
abbrev S1x128x32 : Shape := ⟨3, ![1, 128, 32]⟩
abbrev S1x1x32 : Shape := ⟨3, ![1, 1, 32]⟩
abbrev S1x2048x32 : Shape := ⟨3, ![1, 2048, 32]⟩
abbrev S2048x40 : Shape := ⟨2, ![2048, 40]⟩
abbrev S40x256 : Shape := ⟨2, ![40, 256]⟩
abbrev S2048x256 : Shape := ⟨2, ![2048, 256]⟩
abbrev S1x256 : Shape := ⟨2, ![1, 256]⟩
abbrev S256x256 : Shape := ⟨2, ![256, 256]⟩
abbrev S256x128 : Shape := ⟨2, ![256, 128]⟩
abbrev S2048x128 : Shape := ⟨2, ![2048, 128]⟩
abbrev S1x128 : Shape := ⟨2, ![1, 128]⟩
abbrev S128x32 : Shape := ⟨2, ![128, 32]⟩

abbrev nBuf : Space → Nat
  | .hbm => 26
  | .vmem => 34
  | .smem => 0
  | _ => 0

abbrev bufTy : (tb : Table) → Fin (tcTables nBuf tb) → BufTy
  | .hbm, ⟨0, _⟩ => ⟨S32768x32, .f32⟩
  | .hbm, ⟨1, _⟩ => ⟨S32768x8, .f32⟩
  | .hbm, ⟨2, _⟩ => ⟨S7x40x256, .f32⟩
  | .hbm, ⟨3, _⟩ => ⟨S7x256, .f32⟩
  | .hbm, ⟨4, _⟩ => ⟨S7x256x256, .f32⟩
  | .hbm, ⟨5, _⟩ => ⟨S7x256, .f32⟩
  | .hbm, ⟨6, _⟩ => ⟨S7x256x256, .f32⟩
  | .hbm, ⟨7, _⟩ => ⟨S7x256, .f32⟩
  | .hbm, ⟨8, _⟩ => ⟨S7x256x128, .f32⟩
  | .hbm, ⟨9, _⟩ => ⟨S7x128, .f32⟩
  | .hbm, ⟨10, _⟩ => ⟨S7x128x32, .f32⟩
  | .hbm, ⟨11, _⟩ => ⟨S7x32, .f32⟩
  | .hbm, ⟨12, _⟩ => ⟨S7x128x32, .f32⟩
  | .hbm, ⟨13, _⟩ => ⟨S7x32, .f32⟩
  | .hbm, ⟨14, _⟩ => ⟨S32, .f32⟩
  | .hbm, ⟨15, _⟩ => ⟨S32, .f32⟩
  | .hbm, ⟨16, _⟩ => ⟨S7x1x256, .f32⟩
  | .hbm, ⟨17, _⟩ => ⟨S7x1x256, .f32⟩
  | .hbm, ⟨18, _⟩ => ⟨S7x1x256, .f32⟩
  | .hbm, ⟨19, _⟩ => ⟨S7x1x128, .f32⟩
  | .hbm, ⟨20, _⟩ => ⟨S7x1x32, .f32⟩
  | .hbm, ⟨21, _⟩ => ⟨S7x1x32, .f32⟩
  | .hbm, ⟨22, _⟩ => ⟨S1x32, .f32⟩
  | .hbm, ⟨23, _⟩ => ⟨S1x32, .f32⟩
  | .hbm, ⟨24, _⟩ => ⟨S7x32768x32, .f32⟩
  | .hbm, ⟨25, _⟩ => ⟨S7x32768x32, .f32⟩
  | .local _ .vmem, ⟨0, _⟩ => ⟨S2048x32, .f32⟩
  | .local _ .vmem, ⟨1, _⟩ => ⟨S2048x32, .f32⟩
  | .local _ .vmem, ⟨2, _⟩ => ⟨S2048x8, .f32⟩
  | .local _ .vmem, ⟨3, _⟩ => ⟨S2048x8, .f32⟩
  | .local _ .vmem, ⟨4, _⟩ => ⟨S1x40x256, .f32⟩
  | .local _ .vmem, ⟨5, _⟩ => ⟨S1x40x256, .f32⟩
  | .local _ .vmem, ⟨6, _⟩ => ⟨S1x1x256, .f32⟩
  | .local _ .vmem, ⟨7, _⟩ => ⟨S1x1x256, .f32⟩
  | .local _ .vmem, ⟨8, _⟩ => ⟨S1x256x256, .f32⟩
  | .local _ .vmem, ⟨9, _⟩ => ⟨S1x256x256, .f32⟩
  | .local _ .vmem, ⟨10, _⟩ => ⟨S1x1x256, .f32⟩
  | .local _ .vmem, ⟨11, _⟩ => ⟨S1x1x256, .f32⟩
  | .local _ .vmem, ⟨12, _⟩ => ⟨S1x256x256, .f32⟩
  | .local _ .vmem, ⟨13, _⟩ => ⟨S1x256x256, .f32⟩
  | .local _ .vmem, ⟨14, _⟩ => ⟨S1x1x256, .f32⟩
  | .local _ .vmem, ⟨15, _⟩ => ⟨S1x1x256, .f32⟩
  | .local _ .vmem, ⟨16, _⟩ => ⟨S1x256x128, .f32⟩
  | .local _ .vmem, ⟨17, _⟩ => ⟨S1x256x128, .f32⟩
  | .local _ .vmem, ⟨18, _⟩ => ⟨S1x1x128, .f32⟩
  | .local _ .vmem, ⟨19, _⟩ => ⟨S1x1x128, .f32⟩
  | .local _ .vmem, ⟨20, _⟩ => ⟨S1x128x32, .f32⟩
  | .local _ .vmem, ⟨21, _⟩ => ⟨S1x128x32, .f32⟩
  | .local _ .vmem, ⟨22, _⟩ => ⟨S1x1x32, .f32⟩
  | .local _ .vmem, ⟨23, _⟩ => ⟨S1x1x32, .f32⟩
  | .local _ .vmem, ⟨24, _⟩ => ⟨S1x128x32, .f32⟩
  | .local _ .vmem, ⟨25, _⟩ => ⟨S1x128x32, .f32⟩
  | .local _ .vmem, ⟨26, _⟩ => ⟨S1x1x32, .f32⟩
  | .local _ .vmem, ⟨27, _⟩ => ⟨S1x1x32, .f32⟩
  | .local _ .vmem, ⟨28, _⟩ => ⟨S1x32, .f32⟩
  | .local _ .vmem, ⟨29, _⟩ => ⟨S1x32, .f32⟩
  | .local _ .vmem, ⟨30, _⟩ => ⟨S1x2048x32, .f32⟩
  | .local _ .vmem, ⟨31, _⟩ => ⟨S1x2048x32, .f32⟩
  | .local _ .vmem, ⟨32, _⟩ => ⟨S1x2048x32, .f32⟩
  | .local _ .vmem, ⟨33, _⟩ => ⟨S1x2048x32, .f32⟩
  | _, _ => ⟨S32768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x40x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x128x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x2048x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2048x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

class Facts₀ : Prop where
  shapeCasts_S7x256_S7x1x256 : S7x256.ShapeCasts S7x1x256
  shapeCasts_S7x128_S7x1x128 : S7x128.ShapeCasts S7x1x128
  shapeCasts_S7x32_S7x1x32 : S7x32.ShapeCasts S7x1x32
  shapeCasts_S32_S1x32 : S32.ShapeCasts S1x32
  inb_S2048x32_S2048x32_0_0 : ∀ a, (![0, 0] : Fin 2 → Nat) a + S2048x32.size a ≤ S2048x32.size a
  h_S2048x32 : 0 < S2048x32.numel
  inb_S2048x8_S2048x8_0_0 : ∀ a, (![0, 0] : Fin 2 → Nat) a + S2048x8.size a ≤ S2048x8.size a
  h_S2048x8 : 0 < S2048x8.numel
  concatenates_S2048x32_S2048x8_S2048x40_d1 : Shape.Concatenates [S2048x32, S2048x8] S2048x40 1
  bitsLt_bf16_f32 : FTy.bits .bf16 < FTy.bits .f32
  inb_S1x40x256_S1x40x256_0_0_0 : ∀ a, (![0, 0, 0] : Fin 3 → Nat) a + S1x40x256.size a ≤ S1x40x256.size a
  h_S1x40x256 : 0 < S1x40x256.numel
  shapeCasts_S1x40x256_S40x256 : S1x40x256.ShapeCasts S40x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2048x256 : S1x256.Broadcasts S2048x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S2048x128 : S1x128.Broadcasts S2048x128
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  broadcasts_S1x32_S2048x32 : S1x32.Broadcasts S2048x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  shapeCasts_S2048x32_S1x2048x32 : S2048x32.ShapeCasts S1x2048x32
  dot_S2048x40_S40x256_S2048x256_1_0_0_1_n_n_wf : DotDims.WF S2048x40 S40x256 S2048x256 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x128_S128x32_S2048x32_1_0_0_1_n_n_wf : DotDims.WF S2048x128 S128x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S32768x32.size a
  hwx0_0 : ∀ i : grid0.Coords, EltTy.bits .f32 = 32 ∨ (Rect.block (s := S32768x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S32768x8.size a
  hwx0_1 : ∀ i : grid0.Coords, EltTy.bits .f32 = 32 ∨ (Rect.block (s := S32768x8) S2048x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x40x256.size a ≤ S7x40x256.size a
  hwx0_2 : ∀ i : grid0.Coords, EltTy.bits .f32 = 32 ∨ (Rect.block (s := S7x40x256) S1x40x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S7x1x256.size a
  hwx0_3 : ∀ i : grid0.Coords, EltTy.bits .f32 = 32 ∨ (Rect.block (s := S7x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S7x256x256.size a
  hwx0_4 : ∀ i : grid0.Coords, EltTy.bits .f32 = 32 ∨ (Rect.block (s := S7x256x256) S1x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S7x1x256.size a
  hwx0_5 : ∀ i : grid0.Coords, EltTy.bits .f32 = 32 ∨ (Rect.block (s := S7x1x256) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x256.size a ≤ S7x256x256.size a
  hwx0_6 : ∀ i : grid0.Coords, EltTy.bits .f32 = 32 ∨ (Rect.block (s := S7x256x256) S1x256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S7x1x256.size a
  hwx0_7 : ∀ i : grid0.Coords, EltTy.bits .f32 = 32 ∨ (Rect.block (s := S7x1x256) S1x1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x128.size a ≤ S7x256x128.size a
  hwx0_8 : ∀ i : grid0.Coords, EltTy.bits .f32 = 32 ∨ (Rect.block (s := S7x256x128) S1x256x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S7x1x128.size a
  hwx0_9 : ∀ i : grid0.Coords, EltTy.bits .f32 = 32 ∨ (Rect.block (s := S7x1x128) S1x1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128x32.size a ≤ S7x128x32.size a
  hwx0_10 : ∀ i : grid0.Coords, EltTy.bits .f32 = 32 ∨ (Rect.block (s := S7x128x32) S1x128x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x32.size a ≤ S7x1x32.size a
  hwx0_11 : ∀ i : grid0.Coords, EltTy.bits .f32 = 32 ∨ (Rect.block (s := S7x1x32) S1x1x32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128x32.size a ≤ S7x128x32.size a
  hwx0_12 : ∀ i : grid0.Coords, EltTy.bits .f32 = 32 ∨ (Rect.block (s := S7x128x32) S1x128x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x32.size a ≤ S7x1x32.size a
  hwx0_13 : ∀ i : grid0.Coords, EltTy.bits .f32 = 32 ∨ (Rect.block (s := S7x1x32) S1x1x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x32.size a ≤ S1x32.size a
  hwx0_14 : ∀ i : grid0.Coords, EltTy.bits .f32 = 32 ∨ (Rect.block (s := S1x32) S1x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x32.size a ≤ S1x32.size a
  hwx0_15 : ∀ i : grid0.Coords, EltTy.bits .f32 = 32 ∨ (Rect.block (s := S1x32) S1x32.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x2048x32.size a ≤ S7x32768x32.size a
  hwx0_16 : ∀ i : grid0.Coords, EltTy.bits .f32 = 32 ∨ (Rect.block (s := S7x32768x32) S1x2048x32.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x2048x32.size a ≤ S7x32768x32.size a
  hwx0_17 : ∀ i : grid0.Coords, EltTy.bits .f32 = 32 ∨ (Rect.block (s := S7x32768x32) S1x2048x32.size (cc0_transform_17 i) (hinb0_17 i)).WholeWords (EltTy.packing .f32)

variable [Facts₀]

def dot_S2048x40_S40x256_S2048x256_1_0_0_1_n_n : DotDims S2048x40 S40x256 S2048x256 where
  lhsContracting := [1]
  rhsContracting := [0]
  lhsNonContracting := [0]
  rhsNonContracting := [1]
  lhsBatch := []
  rhsBatch := []
  wf := dot_S2048x40_S40x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf

abbrev win0_0 : Pipeline.Window sig grid0 :=
  Pipeline.Window.ofSpec (Memref.whole main_arg0) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x40x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x256x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128x32.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x1x32.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x128x32.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v5) S1x1x32.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S1x32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8_0) S1x2048x32.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v8_1) S1x2048x32.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S32768x32 : Shape := ⟨2, ![32768, 32]⟩
abbrev S32768x8 : Shape := ⟨2, ![32768, 8]⟩
abbrev S7x40x256 : Shape := ⟨3, ![7, 40, 256]⟩
abbrev S7x256 : Shape := ⟨2, ![7, 256]⟩
abbrev S7x256x256 : Shape := ⟨3, ![7, 256, 256]⟩
abbrev S7x256x128 : Shape := ⟨3, ![7, 256, 128]⟩
abbrev S7x128 : Shape := ⟨2, ![7, 128]⟩
abbrev S7x128x32 : Shape := ⟨3, ![7, 128, 32]⟩
abbrev S7x32 : Shape := ⟨2, ![7, 32]⟩
abbrev S32 : Shape := ⟨1, ![32]⟩
abbrev S32768x40 : Shape := ⟨2, ![32768, 40]⟩
abbrev S7x32768x40 : Shape := ⟨3, ![7, 32768, 40]⟩
abbrev S7x32768x256 : Shape := ⟨3, ![7, 32768, 256]⟩
abbrev S7x1x256 : Shape := ⟨3, ![7, 1, 256]⟩
abbrev S_ : Shape := ⟨0, ![]⟩
abbrev S7x32768x128 : Shape := ⟨3, ![7, 32768, 128]⟩
abbrev S7x1x128 : Shape := ⟨3, ![7, 1, 128]⟩
abbrev S7x32768x32 : Shape := ⟨3, ![7, 32768, 32]⟩
abbrev S7x1x32 : Shape := ⟨3, ![7, 1, 32]⟩
abbrev S1x1x32 : Shape := ⟨3, ![1, 1, 32]⟩
abbrev S1x32768x32 : Shape := ⟨3, ![1, 32768, 32]⟩

abbrev nBuf : Space → Nat
  | .hbm => 122
  | .vmem => 0
  | .smem => 0
  | _ => 0

abbrev bufTy : (tb : Table) → Fin (tcTables nBuf tb) → BufTy
  | .hbm, ⟨0, _⟩ => ⟨S32768x32, .f32⟩
  | .hbm, ⟨1, _⟩ => ⟨S32768x8, .f32⟩
  | .hbm, ⟨2, _⟩ => ⟨S7x40x256, .f32⟩
  | .hbm, ⟨3, _⟩ => ⟨S7x256, .f32⟩
  | .hbm, ⟨4, _⟩ => ⟨S7x256x256, .f32⟩
  | .hbm, ⟨5, _⟩ => ⟨S7x256, .f32⟩
  | .hbm, ⟨6, _⟩ => ⟨S7x256x256, .f32⟩
  | .hbm, ⟨7, _⟩ => ⟨S7x256, .f32⟩
  | .hbm, ⟨8, _⟩ => ⟨S7x256x128, .f32⟩
  | .hbm, ⟨9, _⟩ => ⟨S7x128, .f32⟩
  | .hbm, ⟨10, _⟩ => ⟨S7x128x32, .f32⟩
  | .hbm, ⟨11, _⟩ => ⟨S7x32, .f32⟩
  | .hbm, ⟨12, _⟩ => ⟨S7x128x32, .f32⟩
  | .hbm, ⟨13, _⟩ => ⟨S7x32, .f32⟩
  | .hbm, ⟨14, _⟩ => ⟨S32, .f32⟩
  | .hbm, ⟨15, _⟩ => ⟨S32, .f32⟩
  | .hbm, ⟨16, _⟩ => ⟨S32768x40, .f32⟩
  | .hbm, ⟨17, _⟩ => ⟨S7x32768x40, .f32⟩
  | .hbm, ⟨18, _⟩ => ⟨S7x32768x256, .f32⟩
  | .hbm, ⟨19, _⟩ => ⟨S7x1x256, .f32⟩
  | .hbm, ⟨20, _⟩ => ⟨S7x32768x256, .f32⟩
  | .hbm, ⟨21, _⟩ => ⟨S7x32768x256, .f32⟩
  | .hbm, ⟨22, _⟩ => ⟨S7x32768x256, .f32⟩
  | .hbm, ⟨23, _⟩ => ⟨S7x32768x256, .f32⟩
  | .hbm, ⟨24, _⟩ => ⟨S_, .f32⟩
  | .hbm, ⟨25, _⟩ => ⟨S7x32768x256, .f32⟩
  | .hbm, ⟨26, _⟩ => ⟨S7x32768x256, .f32⟩
  | .hbm, ⟨27, _⟩ => ⟨S_, .f32⟩
  | .hbm, ⟨28, _⟩ => ⟨S7x32768x256, .f32⟩
  | .hbm, ⟨29, _⟩ => ⟨S7x32768x256, .f32⟩
  | .hbm, ⟨30, _⟩ => ⟨S7x32768x256, .f32⟩
  | .hbm, ⟨31, _⟩ => ⟨S7x32768x256, .f32⟩
  | .hbm, ⟨32, _⟩ => ⟨S7x1x256, .f32⟩
  | .hbm, ⟨33, _⟩ => ⟨S7x32768x256, .f32⟩
  | .hbm, ⟨34, _⟩ => ⟨S7x32768x256, .f32⟩
  | .hbm, ⟨35, _⟩ => ⟨S7x32768x256, .f32⟩
  | .hbm, ⟨36, _⟩ => ⟨S7x32768x256, .f32⟩
  | .hbm, ⟨37, _⟩ => ⟨S_, .f32⟩
  | .hbm, ⟨38, _⟩ => ⟨S7x32768x256, .f32⟩
  | .hbm, ⟨39, _⟩ => ⟨S7x32768x256, .f32⟩
  | .hbm, ⟨40, _⟩ => ⟨S_, .f32⟩
  | .hbm, ⟨41, _⟩ => ⟨S7x32768x256, .f32⟩
  | .hbm, ⟨42, _⟩ => ⟨S7x32768x256, .f32⟩
  | .hbm, ⟨43, _⟩ => ⟨S7x32768x256, .f32⟩
  | .hbm, ⟨44, _⟩ => ⟨S7x32768x256, .f32⟩
  | .hbm, ⟨45, _⟩ => ⟨S7x1x256, .f32⟩
  | .hbm, ⟨46, _⟩ => ⟨S7x32768x256, .f32⟩
  | .hbm, ⟨47, _⟩ => ⟨S7x32768x256, .f32⟩
  | .hbm, ⟨48, _⟩ => ⟨S7x32768x256, .f32⟩
  | .hbm, ⟨49, _⟩ => ⟨S7x32768x256, .f32⟩
  | .hbm, ⟨50, _⟩ => ⟨S_, .f32⟩
  | .hbm, ⟨51, _⟩ => ⟨S7x32768x256, .f32⟩
  | .hbm, ⟨52, _⟩ => ⟨S7x32768x256, .f32⟩
  | .hbm, ⟨53, _⟩ => ⟨S_, .f32⟩
  | .hbm, ⟨54, _⟩ => ⟨S7x32768x256, .f32⟩
  | .hbm, ⟨55, _⟩ => ⟨S7x32768x256, .f32⟩
  | .hbm, ⟨56, _⟩ => ⟨S7x32768x256, .f32⟩
  | .hbm, ⟨57, _⟩ => ⟨S7x32768x128, .f32⟩
  | .hbm, ⟨58, _⟩ => ⟨S7x1x128, .f32⟩
  | .hbm, ⟨59, _⟩ => ⟨S7x32768x128, .f32⟩
  | .hbm, ⟨60, _⟩ => ⟨S7x32768x128, .f32⟩
  | .hbm, ⟨61, _⟩ => ⟨S7x32768x128, .f32⟩
  | .hbm, ⟨62, _⟩ => ⟨S7x32768x128, .f32⟩
  | .hbm, ⟨63, _⟩ => ⟨S_, .f32⟩
  | .hbm, ⟨64, _⟩ => ⟨S7x32768x128, .f32⟩
  | .hbm, ⟨65, _⟩ => ⟨S7x32768x128, .f32⟩
  | .hbm, ⟨66, _⟩ => ⟨S_, .f32⟩
  | .hbm, ⟨67, _⟩ => ⟨S7x32768x128, .f32⟩
  | .hbm, ⟨68, _⟩ => ⟨S7x32768x128, .f32⟩
  | .hbm, ⟨69, _⟩ => ⟨S7x32768x128, .f32⟩
  | .hbm, ⟨70, _⟩ => ⟨S7x32768x32, .f32⟩
  | .hbm, ⟨71, _⟩ => ⟨S7x1x32, .f32⟩
  | .hbm, ⟨72, _⟩ => ⟨S7x32768x32, .f32⟩
  | .hbm, ⟨73, _⟩ => ⟨S7x32768x32, .f32⟩
  | .hbm, ⟨74, _⟩ => ⟨S7x32768x32, .f32⟩
  | .hbm, ⟨75, _⟩ => ⟨S7x1x32, .f32⟩
  | .hbm, ⟨76, _⟩ => ⟨S7x32768x32, .f32⟩
  | .hbm, ⟨77, _⟩ => ⟨S7x32768x32, .f32⟩
  | .hbm, ⟨78, _⟩ => ⟨S1x1x32, .f32⟩
  | .hbm, ⟨79, _⟩ => ⟨S7x32768x32, .f32⟩
  | .hbm, ⟨80, _⟩ => ⟨S7x32768x32, .f32⟩
  | .hbm, ⟨81, _⟩ => ⟨S_, .f32⟩
  | .hbm, ⟨82, _⟩ => ⟨S7x32768x32, .f32⟩
  | .hbm, ⟨83, _⟩ => ⟨S7x32768x32, .f32⟩
  | .hbm, ⟨84, _⟩ => ⟨S7x32768x32, .f32⟩
  | .hbm, ⟨85, _⟩ => ⟨S7x32768x32, .f32⟩
  | .hbm, ⟨86, _⟩ => ⟨S7x32768x32, .i1⟩
  | .hbm, ⟨87, _⟩ => ⟨S7x32768x32, .f32⟩
  | .hbm, ⟨88, _⟩ => ⟨S7x32768x32, .f32⟩
  | .hbm, ⟨89, _⟩ => ⟨S7x32768x32, .f32⟩
  | .hbm, ⟨90, _⟩ => ⟨S7x32768x32, .f32⟩
  | .hbm, ⟨91, _⟩ => ⟨S7x32768x32, .f32⟩
  | .hbm, ⟨92, _⟩ => ⟨S7x32768x32, .f32⟩
  | .hbm, ⟨93, _⟩ => ⟨S7x32768x32, .f32⟩
  | .hbm, ⟨94, _⟩ => ⟨S7x32768x32, .f32⟩
  | .hbm, ⟨95, _⟩ => ⟨S1x1x32, .f32⟩
  | .hbm, ⟨96, _⟩ => ⟨S7x32768x32, .f32⟩
  | .hbm, ⟨97, _⟩ => ⟨S7x32768x32, .f32⟩
  | .hbm, ⟨98, _⟩ => ⟨S1x1x32, .f32⟩
  | .hbm, ⟨99, _⟩ => ⟨S7x32768x32, .f32⟩
  | .hbm, ⟨100, _⟩ => ⟨S7x32768x32, .f32⟩
  | .hbm, ⟨101, _⟩ => ⟨S_, .f32⟩
  | .hbm, ⟨102, _⟩ => ⟨S7x32768x32, .f32⟩
  | .hbm, ⟨103, _⟩ => ⟨S7x32768x32, .f32⟩
  | .hbm, ⟨104, _⟩ => ⟨S7x32768x32, .f32⟩
  | .hbm, ⟨105, _⟩ => ⟨S7x32768x32, .f32⟩
  | .hbm, ⟨106, _⟩ => ⟨S7x32768x32, .i1⟩
  | .hbm, ⟨107, _⟩ => ⟨S7x32768x32, .f32⟩
  | .hbm, ⟨108, _⟩ => ⟨S7x32768x32, .f32⟩
  | .hbm, ⟨109, _⟩ => ⟨S7x32768x32, .f32⟩
  | .hbm, ⟨110, _⟩ => ⟨S7x32768x32, .f32⟩
  | .hbm, ⟨111, _⟩ => ⟨S7x32768x32, .f32⟩
  | .hbm, ⟨112, _⟩ => ⟨S7x32768x32, .f32⟩
  | .hbm, ⟨113, _⟩ => ⟨S7x32768x32, .f32⟩
  | .hbm, ⟨114, _⟩ => ⟨S7x32768x32, .f32⟩
  | .hbm, ⟨115, _⟩ => ⟨S1x1x32, .f32⟩
  | .hbm, ⟨116, _⟩ => ⟨S7x32768x32, .f32⟩
  | .hbm, ⟨117, _⟩ => ⟨S7x32768x32, .f32⟩
  | .hbm, ⟨118, _⟩ => ⟨S7x32768x32, .f32⟩
  | .hbm, ⟨119, _⟩ => ⟨S1x32768x32, .f32⟩
  | .hbm, ⟨120, _⟩ => ⟨S7x32768x32, .f32⟩
  | .hbm, ⟨121, _⟩ => ⟨S7x32768x32, .f32⟩
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_v8 : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩

abbrev nD : Nat := 1
abbrev τ : Topo := Topo.v7x

variable {F : FTy → Type} [FloatOps F]

class Facts₀ : Prop where
  concatenates_S32768x32_S32768x8_S32768x40_d1 : Shape.Concatenates [S32768x32, S32768x8] S32768x40 1
  bcast_S32768x40_S7x32768x40_1_2 : S32768x40.BroadcastsInDim S7x32768x40 (![1, 2] : Fin 2 → Fin S7x32768x40.rank)
  bcast_S7x256_S7x1x256_0_2 : S7x256.BroadcastsInDim S7x1x256 (![0, 2] : Fin 2 → Fin S7x1x256.rank)
  bcast_S7x1x256_S7x32768x256_0_1_2 : S7x1x256.BroadcastsInDim S7x32768x256 (![0, 1, 2] : Fin 3 → Fin S7x32768x256.rank)
  bcast_S_S7x32768x256 : S_.BroadcastsInDim S7x32768x256 (![] : Fin 0 → Fin S7x32768x256.rank)
  bcast_S7x128_S7x1x128_0_2 : S7x128.BroadcastsInDim S7x1x128 (![0, 2] : Fin 2 → Fin S7x1x128.rank)
  bcast_S7x1x128_S7x32768x128_0_1_2 : S7x1x128.BroadcastsInDim S7x32768x128 (![0, 1, 2] : Fin 3 → Fin S7x32768x128.rank)
  bcast_S_S7x32768x128 : S_.BroadcastsInDim S7x32768x128 (![] : Fin 0 → Fin S7x32768x128.rank)
  bcast_S7x32_S7x1x32_0_2 : S7x32.BroadcastsInDim S7x1x32 (![0, 2] : Fin 2 → Fin S7x1x32.rank)
  bcast_S7x1x32_S7x32768x32_0_1_2 : S7x1x32.BroadcastsInDim S7x32768x32 (![0, 1, 2] : Fin 3 → Fin S7x32768x32.rank)
  bcast_S32_S1x1x32_2 : S32.BroadcastsInDim S1x1x32 (![2] : Fin 1 → Fin S1x1x32.rank)
  bcast_S1x1x32_S7x32768x32_0_1_2 : S1x1x32.BroadcastsInDim S7x32768x32 (![0, 1, 2] : Fin 3 → Fin S7x32768x32.rank)
  bcast_S_S7x32768x32 : S_.BroadcastsInDim S7x32768x32 (![] : Fin 0 → Fin S7x32768x32.rank)
  bcast_S32768x32_S1x32768x32_1_2 : S32768x32.BroadcastsInDim S1x32768x32 (![1, 2] : Fin 2 → Fin S1x32768x32.rank)
  bcast_S1x32768x32_S7x32768x32_0_1_2 : S1x32768x32.BroadcastsInDim S7x32768x32 (![0, 1, 2] : Fin 3 → Fin S7x32768x32.rank)
  dot_S7x32768x40_S7x40x256_S7x32768x256_2_1_1_2_0_0_wf : DotDims.WF S7x32768x40 S7x40x256 S7x32768x256 [2] [1] [1] [2] [0] [0]
  dot_S7x32768x256_S7x256x256_S7x32768x256_2_1_1_2_0_0_wf : DotDims.WF S7x32768x256 S7x256x256 S7x32768x256 [2] [1] [1] [2] [0] [0]
  dot_S7x32768x256_S7x256x128_S7x32768x128_2_1_1_2_0_0_wf : DotDims.WF S7x32768x256 S7x256x128 S7x32768x128 [2] [1] [1] [2] [0] [0]
  dot_S7x32768x128_S7x128x32_S7x32768x32_2_1_1_2_0_0_wf : DotDims.WF S7x32768x128 S7x128x32 S7x32768x32 [2] [1] [1] [2] [0] [0]

variable [Facts₀]

def dot_S7x32768x40_S7x40x256_S7x32768x256_2_1_1_2_0_0 : DotDims S7x32768x40 S7x40x256 S7x32768x256 where
  lhsContracting := [2]
  rhsContracting := [1]
  lhsNonContracting := [1]
  rhsNonContracting := [2]
  lhsBatch := [0]
  rhsBatch := [0]
  wf := dot_S7x32768x40_S7x40x256_S7x32768x256_2_1_1_2_0_0_wf
def dot_S7x32768x256_S7x256x256_S7x32768x256_2_1_1_2_0_0 : DotDims S7x32768x256 S7x256x256 S7x32768x256 where
  lhsContracting := [2]
  rhsContracting := [1]
  lhsNonContracting := [1]
  rhsNonContracting := [2]
  lhsBatch := [0]
  rhsBatch := [0]
  wf := dot_S7x32768x256_S7x256x256_S7x32768x256_2_1_1_2_0_0_wf
def dot_S7x32768x256_S7x256x128_S7x32768x128_2_1_1_2_0_0 : DotDims S7x32768x256 S7x256x128 S7x32768x128 where
  lhsContracting := [2]
  rhsContracting := [1]
  lhsNonContracting := [1]
  rhsNonContracting := [2]
  lhsBatch := [0]
  rhsBatch := [0]
  wf := dot_S7x32768x256_S7x256x128_S7x32768x128_2_1_1_2_0_0_wf
def dot_S7x32768x128_S7x128x32_S7x32768x32_2_1_1_2_0_0 : DotDims S7x32768x128 S7x128x32 S7x32768x32 where
  lhsContracting := [2]
  rhsContracting := [1]
  lhsNonContracting := [1]
  rhsNonContracting := [2]
  lhsBatch := [0]
  rhsBatch := [0]
  wf := dot_S7x32768x128_S7x128x32_S7x32768x32_2_1_1_2_0_0_wf

class Facts : Prop extends Facts₀ where

variable [Facts]
-- ==== Proof.Spec.lean ====
/-
  The mathematics of the ensemble network, with no program in sight.

  For ensemble member e and batch row r the network reads the row x = [state r, action r] (40 numbers), applies four
  dense layers with the swish activation y ↦ y · σ(y), σ(y) = 1 / (1 + e^(-y)),
      h₁ = swish (x W0ₑ + b0ₑ),  h₂ = swish (h₁ W1ₑ + b1ₑ),  h₃ = swish (h₂ W2ₑ + b2ₑ),  h₄ = swish (h₃ W3ₑ + b3ₑ),
  and two linear heads: the mean  μ = h₄ Wmuₑ + bmuₑ + state r  and the log-deviation ℓ = h₄ Wsigₑ + bsigₑ, which is
  squeezed between the two bounds by two softplus steps,  ℓ' = hi - softplus (hi - ℓ),  ℓ'' = lo + softplus (ℓ' - lo),
  and exponentiated: σ = exp ℓ''.  Everything is an extended real; every sum is a finite sum over the contracted
  axis; no law beyond the definitions is used, so nothing here needs the inputs to be finite.

  Entry [e, r, ·] of either result depends only on row r of state and action, on member e's weights and on the two
  bounds. The functions below are therefore stated on ROWS (functions of a plain finite index); the two programs
  differ only in how they cut the batch axis, and both are shown to compute these row functions.
-/
import Idealize.ShloMosaic.PureOps.Ideal
import Idealize.ShloMosaic.PureOps.Ideal.Laws
import Idealize.ShloMosaic.Lib.ValueIdx

noncomputable section

namespace Cert.EnsembleMlp

open Idealize.ShloMosaic Idealize.ShloMosaic.ValueIdx

/-- The row [s, a]: the first 32 entries are s, the last 8 are a. -/
def catRow (s : Fin 32 → EReal) (a : Fin 8 → EReal) : Fin 40 → EReal :=
  fun k => if h : k.val < 32 then s ⟨k.val, h⟩ else a ⟨k.val - 32, by have := k.isLt; omega⟩

/-- A row times a matrix plus a bias row: entry o is ∑ₖ h k · W k o + b o. -/
def dense {I O : ℕ} (h : Fin I → EReal) (W : Fin I → Fin O → EReal) (b : Fin O → EReal) : Fin O → EReal :=
  fun o => (∑ k : Fin I, h k * W k o) + b o

/-- y · σ(y) with σ(y) = 1 / (1 + e^(-y)). -/
def swish (y : EReal) : EReal := y * Ideal.logistic y

/-- One hidden layer on a row. -/
def layer {I O : ℕ} (h : Fin I → EReal) (W : Fin I → Fin O → EReal) (b : Fin O → EReal) : Fin O → EReal :=
  fun o => swish (dense h W b o)

/-- The four hidden layers: 40 → 256 → 256 → 256 → 128. -/
def trunk (x : Fin 40 → EReal)
    (W0 : Fin 40 → Fin 256 → EReal) (b0 : Fin 256 → EReal) (W1 : Fin 256 → Fin 256 → EReal) (b1 : Fin 256 → EReal)
    (W2 : Fin 256 → Fin 256 → EReal) (b2 : Fin 256 → EReal) (W3 : Fin 256 → Fin 128 → EReal) (b3 : Fin 128 → EReal) :
    Fin 128 → EReal :=
  layer (layer (layer (layer x W0 b0) W1 b1) W2 b2) W3 b3

/-- log (1 + e^x) in the overflow-free form max x 0 + log1p (e^(-|x|)), with |x| = max x (-x). -/
def softplus (x : EReal) : EReal := max x 0 + Ideal.log1p (Ideal.exp (-(max x (-x))))

/-- The deviation: the log-deviation squeezed into [lo, hi] by two softplus steps, then exponentiated. -/
def clampExp (lo hi l : EReal) : EReal := Ideal.exp (lo + softplus ((hi - softplus (hi - l)) - lo))

/-! ## The two spellings of the activation and of softplus -/

/-- The sigmoid spelt with a quotient, 1 / (1 + e^(-y)), is the one function `Ideal.logistic`. -/
theorem swish_quot (y : EReal) : y * Ideal.div 1 (1 + Ideal.exp (-y)) = swish y := rfl

/-- A number is never different from itself: the test d ≠ d (which in floating point detects NaN) is false on the
    extended reals, in its ordered and in its unordered form. -/
theorem cmp_one_self (d : EReal) : Ideal.cmp .one d d = 0#1 := by simp [Ideal.cmp]
theorem cmp_une_self (d : EReal) : Ideal.cmp .une d d = 0#1 := by simp [Ideal.cmp]

/-- Softplus as the kernel spells it: d = x - 0, the guard d ≠ d selects x + 0, otherwise
    max x 0 + log1p (exp (0 - |d|)). -/
theorem softplus_sub (x : EReal) :
    Scalar.select (Ideal.cmp .one (x - 0) (x - 0)) (x + 0)
      (max x 0 + Ideal.log1p (Ideal.exp (0 - max (x - 0) (-(x - 0))))) = softplus x := by
  rw [cmp_one_self, select_zero, sub_zero, zero_sub]; rfl

/-- Softplus as the host spells it: the same with -|d| for 0 - |d| and the unordered test. -/
theorem softplus_neg (x : EReal) :
    Scalar.select (Ideal.cmp .une (x - 0) (x - 0)) (x + 0)
      (max x 0 + Ideal.log1p (Ideal.exp (-(max (x - 0) (-(x - 0)))))) = softplus x := by
  rw [cmp_une_self, select_zero, sub_zero]; rfl

/-! ## The result arrays -/

abbrev A32768x32 : Shape := ⟨2, ![32768, 32]⟩
abbrev A32768x8 : Shape := ⟨2, ![32768, 8]⟩
abbrev A7x40x256 : Shape := ⟨3, ![7, 40, 256]⟩
abbrev A7x256x256 : Shape := ⟨3, ![7, 256, 256]⟩
abbrev A7x256x128 : Shape := ⟨3, ![7, 256, 128]⟩
abbrev A7x128x32 : Shape := ⟨3, ![7, 128, 32]⟩
abbrev A7x256 : Shape := ⟨2, ![7, 256]⟩
abbrev A7x128 : Shape := ⟨2, ![7, 128]⟩
abbrev A7x32 : Shape := ⟨2, ![7, 32]⟩
abbrev A32 : Shape := ⟨1, ![32]⟩
abbrev A7x32768x32 : Shape := ⟨3, ![7, 32768, 32]⟩

/-- Row r of a matrix. -/
def row {R C : ℕ} (A : (⟨2, ![R, C]⟩ : Shape).Idx → EReal) (r : Fin R) : Fin C → EReal := fun j => A (ix2 r j)

/-- Slice e of a stack of matrices. -/
def slab {E I O : ℕ} (A : (⟨3, ![E, I, O]⟩ : Shape).Idx → EReal) (e : Fin E) : Fin I → Fin O → EReal :=
  fun k o => A (ix3 e k o)

/-- A vector as a function of its one coordinate. -/
def vec {C : ℕ} (A : (⟨1, ![C]⟩ : Shape).Idx → EReal) : Fin C → EReal := fun j => A (ix1 j)

section
variable (state : A32768x32.Idx → EReal) (action : A32768x8.Idx → EReal)
  (W0 : A7x40x256.Idx → EReal) (b0 : A7x256.Idx → EReal) (W1 : A7x256x256.Idx → EReal) (b1 : A7x256.Idx → EReal)
  (W2 : A7x256x256.Idx → EReal) (b2 : A7x256.Idx → EReal) (W3 : A7x256x128.Idx → EReal) (b3 : A7x128.Idx → EReal)
  (Wmu : A7x128x32.Idx → EReal) (bmu : A7x32.Idx → EReal) (Wsig : A7x128x32.Idx → EReal) (bsig : A7x32.Idx → EReal)
  (hi lo : A32.Idx → EReal)

/-- Member e's last hidden row for batch row r. -/
def hidden (e : Fin 7) (r : Fin 32768) : Fin 128 → EReal :=
  trunk (catRow (row state r) (row action r)) (slab W0 e) (row b0 e) (slab W1 e) (row b1 e) (slab W2 e) (row b2 e)
    (slab W3 e) (row b3 e)

/-- The mean at [e, r, o]: the linear head plus the state (the residual). -/
def muAt (e : Fin 7) (r : Fin 32768) (o : Fin 32) : EReal :=
  dense (hidden state action W0 b0 W1 b1 W2 b2 W3 b3 e r) (slab Wmu e) (row bmu e) o + state (ix2 r o)

/-- The deviation at [e, r, o]. -/
def sigAt (e : Fin 7) (r : Fin 32768) (o : Fin 32) : EReal :=
  clampExp (vec lo o) (vec hi o) (dense (hidden state action W0 b0 W1 b1 W2 b2 W3 b3 e r) (slab Wsig e) (row bsig e) o)

/-- The mean array [7, 32768, 32]. -/
def muArr : A7x32768x32.Idx → EReal := fun i =>
  muAt state action W0 b0 W1 b1 W2 b2 W3 b3 Wmu bmu (i 0) (i 1) (i 2)

/-- The deviation array [7, 32768, 32]. -/
def sigArr : A7x32768x32.Idx → EReal := fun i =>
  sigAt state action W0 b0 W1 b1 W2 b2 W3 b3 Wsig bsig hi lo (i 0) (i 1) (i 2)

end

/-! ## One block of rows

The kernel works on 2048 rows of the batch and one member at a time; the member's weights reach it as slabs with a
leading axis of extent 1, its biases as [1, 1, n], the bounds as [1, 32]. -/

/-- The only row of a [1, 1, n] array. -/
def row11 {C : ℕ} (A : (⟨3, ![1, 1, C]⟩ : Shape).Idx → EReal) : Fin C → EReal := fun j => A (ix3 0 0 j)

section
variable (s : (⟨2, ![2048, 32]⟩ : Shape).Idx → EReal) (a : (⟨2, ![2048, 8]⟩ : Shape).Idx → EReal)
  (W0 : (⟨3, ![1, 40, 256]⟩ : Shape).Idx → EReal) (b0 : (⟨3, ![1, 1, 256]⟩ : Shape).Idx → EReal)
  (W1 : (⟨3, ![1, 256, 256]⟩ : Shape).Idx → EReal) (b1 : (⟨3, ![1, 1, 256]⟩ : Shape).Idx → EReal)
  (W2 : (⟨3, ![1, 256, 256]⟩ : Shape).Idx → EReal) (b2 : (⟨3, ![1, 1, 256]⟩ : Shape).Idx → EReal)
  (W3 : (⟨3, ![1, 256, 128]⟩ : Shape).Idx → EReal) (b3 : (⟨3, ![1, 1, 128]⟩ : Shape).Idx → EReal)
  (Wh : (⟨3, ![1, 128, 32]⟩ : Shape).Idx → EReal) (bh : (⟨3, ![1, 1, 32]⟩ : Shape).Idx → EReal)
  (hi lo : (⟨2, ![1, 32]⟩ : Shape).Idx → EReal)

/-- The last hidden row for row p of a block. -/
def hiddenBlk (p : Fin 2048) : Fin 128 → EReal :=
  trunk (catRow (row s p) (row a p)) (slab W0 0) (row11 b0) (slab W1 0) (row11 b1) (slab W2 0) (row11 b2)
    (slab W3 0) (row11 b3)

/-- The mean at row p, column o of a block. -/
def muBlk (p : Fin 2048) (o : Fin 32) : EReal :=
  dense (hiddenBlk s a W0 b0 W1 b1 W2 b2 W3 b3 p) (slab Wh 0) (row11 bh) o + s (ix2 p o)

/-- The deviation at row p, column o of a block. -/
def sigBlk (p : Fin 2048) (o : Fin 32) : EReal :=
  clampExp (row lo 0 o) (row hi 0 o) (dense (hiddenBlk s a W0 b0 W1 b1 W2 b2 W3 b3 p) (slab Wh 0) (row11 bh) o)

end

end Cert.EnsembleMlp

end
-- ==== Proof.KernelRows.lean ====
/-
  One grid point of the kernel, read row by row.

  At a grid point the body holds 2048 rows of state and action and ONE member's weights. Each of its products
  [2048, K] · [K, N] into a zero accumulator is, entry (p, o), the sum over k of (row p of the left operand) k times
  W k o, so every row of a layer's result is the row function of the matching row of its input: the body's
  chain of layers, read at row p, is the specification's chain on row p. The casts to and from the 16-bit float
  format are the identity on the extended reals and are carried along silently.
-/
import proofs.«142831_j987842478670_1_alg».proof.Proof.Gen.KernelIdeal.Skeleton
import proofs.«142831_j987842478670_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx Cert.EnsembleMlp

/-! ## Pointwise operations at an index -/

theorem exp_at {s : Shape} {φ : FTy} (a : FVec Ideal s φ) (i : s.Idx) : exp a i = Ideal.exp (a i) := rfl
theorem log1p_at {s : Shape} {φ : FTy} (a : FVec Ideal s φ) (i : s.Idx) : log1p a i = Ideal.log1p (a i) := rfl
theorem absf_at {s : Shape} {φ : FTy} (a : FVec Ideal s φ) (i : s.Idx) : absf a i = max (a i) (-(a i)) := rfl

/-! ### The product [2048, 40] · [40, 256] and the layer built on it -/

theorem lhs40_0 (i : S2048x256.Idx) (q : dot_S2048x40_S40x256_S2048x256_1_0_0_1_n_n.contr.Idx) :
    (dot_S2048x40_S40x256_S2048x256_1_0_0_1_n_n.lhsIdx i q 0).val = (i 0).val := by
  unfold DotDims.lhsIdx
  rw [dif_neg (show ¬(0 : Fin S2048x40.rank) ∈ dot_S2048x40_S40x256_S2048x256_1_0_0_1_n_n.lhsBatch by decide), dif_pos (show (0 : Fin S2048x40.rank) ∈ dot_S2048x40_S40x256_S2048x256_1_0_0_1_n_n.lhsNonContracting by decide)]
  rfl
theorem lhs40_1 (i : S2048x256.Idx) (q : dot_S2048x40_S40x256_S2048x256_1_0_0_1_n_n.contr.Idx) :
    (dot_S2048x40_S40x256_S2048x256_1_0_0_1_n_n.lhsIdx i q 1).val = (q ⟨0, by decide⟩).val :=
  dot_S2048x40_S40x256_S2048x256_1_0_0_1_n_n.lhsIdx_val_of_single rfl i q
theorem rhs40_0 (i : S2048x256.Idx) (q : dot_S2048x40_S40x256_S2048x256_1_0_0_1_n_n.contr.Idx) :
    (dot_S2048x40_S40x256_S2048x256_1_0_0_1_n_n.rhsIdx i q 0).val = (q ⟨0, by decide⟩).val :=
  dot_S2048x40_S40x256_S2048x256_1_0_0_1_n_n.rhsIdx_val_of_single rfl i q
theorem rhs40_1 (i : S2048x256.Idx) (q : dot_S2048x40_S40x256_S2048x256_1_0_0_1_n_n.contr.Idx) :
    (dot_S2048x40_S40x256_S2048x256_1_0_0_1_n_n.rhsIdx i q 1).val = (i 1).val := by
  unfold DotDims.rhsIdx
  rw [dif_neg (show ¬(1 : Fin S40x256.rank) ∈ dot_S2048x40_S40x256_S2048x256_1_0_0_1_n_n.rhsBatch by decide), dif_pos (show (1 : Fin S40x256.rank) ∈ dot_S2048x40_S40x256_S2048x256_1_0_0_1_n_n.rhsNonContracting by decide)]
  rfl

/-- Entry (p, o) of the product into a zero accumulator is the sum over the contracted axis. -/
theorem matmul40_apply {φ₁ φ₂ : FTy} (lhs : FVec Ideal S2048x40 φ₁) (rhs : FVec Ideal S40x256 φ₂) (p : Fin 2048) (o : Fin 256) :
    matmul dot_S2048x40_S40x256_S2048x256_1_0_0_1_n_n none lhs rhs (constant S2048x256 .f32 0x00000000#32) (ix2 p o)
      = ∑ k : Fin 40, lhs (ix2 p k) * rhs (ix2 k o) := by
  show FloatOps.matmul dot_S2048x40_S40x256_S2048x256_1_0_0_1_n_n none lhs rhs (constant S2048x256 .f32 0x00000000#32) (ix2 p o) = _
  rw [Ideal.matmul_constant_zero_apply, ← Equiv.sum_comp (contrEquiv1 dot_S2048x40_S40x256_S2048x256_1_0_0_1_n_n 40 rfl rfl).symm]
  refine Finset.sum_congr rfl fun k _ => ?_
  have hk := contrEquiv1_symm_val dot_S2048x40_S40x256_S2048x256_1_0_0_1_n_n 40 rfl rfl k
  have el : dot_S2048x40_S40x256_S2048x256_1_0_0_1_n_n.lhsIdx (ix2 p o) ((contrEquiv1 dot_S2048x40_S40x256_S2048x256_1_0_0_1_n_n 40 rfl rfl).symm k) = ix2 p k := funext fun a => Fin.ext (by
    match a with
    | ⟨0, _⟩ => exact lhs40_0 _ _
    | ⟨1, _⟩ => exact (lhs40_1 _ _).trans hk)
  have er : dot_S2048x40_S40x256_S2048x256_1_0_0_1_n_n.rhsIdx (ix2 p o) ((contrEquiv1 dot_S2048x40_S40x256_S2048x256_1_0_0_1_n_n 40 rfl rfl).symm k) = ix2 k o := funext fun a => Fin.ext (by
    match a with
    | ⟨0, _⟩ => exact (rhs40_0 _ _).trans hk
    | ⟨1, _⟩ => exact rhs40_1 _ _)
  rw [el, er]

/-- The layer before its activation: the rows h times the member's matrix, plus the member's bias row on every row. -/
abbrev pre40 (h : FVec Ideal S2048x40 .bf16) (W : Vec Ideal S1x40x256 .f32) (b : Vec Ideal S1x1x256 .f32) : FVec Ideal S2048x256 .f32 :=
  addf (matmul dot_S2048x40_S40x256_S2048x256_1_0_0_1_n_n none h (truncf .bf16 (shapeCast S40x256 W shapeCasts_S1x40x256_S40x256) bitsLt_bf16_f32) (constant S2048x256 .f32 0x00000000#32))
    (broadcastTo S2048x256 (shapeCast S1x256 b shapeCasts_S1x1x256_S1x256) broadcasts_S1x256_S2048x256)

/-- Row p of it is the dense map of row p of h. -/
theorem pre40_apply (h : FVec Ideal S2048x40 .bf16) (W : Vec Ideal S1x40x256 .f32) (b : Vec Ideal S1x1x256 .f32) (p : Fin 2048)
    (f : Fin 40 → EReal) (hf : (fun k => h (ix2 p k)) = f) (o : Fin 256) :
    pre40 h W b (ix2 p o) = dense f (slab W 0) (row11 b) o := by
  subst hf
  show matmul dot_S2048x40_S40x256_S2048x256_1_0_0_1_n_n none h (truncf .bf16 (shapeCast S40x256 W shapeCasts_S1x40x256_S40x256) bitsLt_bf16_f32) (constant S2048x256 .f32 0x00000000#32) (ix2 p o)
      + broadcastTo S2048x256 (shapeCast S1x256 b shapeCasts_S1x1x256_S1x256) broadcasts_S1x256_S2048x256 (ix2 p o) = _
  rw [matmul40_apply, broadcastTo_1b_ab_apply, shapeCast_1ab_ab_apply]
  refine congrArg (· + b (ix3 0 0 o)) (Finset.sum_congr rfl fun k _ => ?_)
  show h (ix2 p k) * shapeCast S40x256 W shapeCasts_S1x40x256_S40x256 (ix2 k o) = _
  rw [shapeCast_1ab_ab_apply]
  rfl

/-- The layer with its activation y · σ(y) (the change of float format is the identity on the extended reals). -/
abbrev act40 (h : FVec Ideal S2048x40 .bf16) (W : Vec Ideal S1x40x256 .f32) (b : Vec Ideal S1x1x256 .f32) : FVec Ideal S2048x256 .bf16 :=
  truncf .bf16 (mulf (pre40 h W b) (logistic (pre40 h W b))) bitsLt_bf16_f32

/-- Row p of it is the hidden layer of row p of h. -/
theorem act40_row (h : FVec Ideal S2048x40 .bf16) (W : Vec Ideal S1x40x256 .f32) (b : Vec Ideal S1x1x256 .f32) (p : Fin 2048)
    (f : Fin 40 → EReal) (hf : (fun k => h (ix2 p k)) = f) :
    (fun o => act40 h W b (ix2 p o)) = layer f (slab W 0) (row11 b) :=
  funext fun o => show swish (pre40 h W b (ix2 p o)) = swish _ from congrArg swish (pre40_apply h W b p f hf o)

/-! ### The product [2048, 256] · [256, 256] and the layer built on it -/

theorem lhs256_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs256_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs256_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs256_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Entry (p, o) of the product into a zero accumulator is the sum over the contracted axis. -/
theorem matmul256_apply {φ₁ φ₂ : FTy} (lhs : FVec Ideal S2048x256 φ₁) (rhs : FVec Ideal S256x256 φ₂) (p : Fin 2048) (o : Fin 256) :
    matmul dot_S2048x256_S256x256_S2048x256_1_0_0_1_n_n none lhs rhs (constant S2048x256 .f32 0x00000000#32) (ix2 p o)
      = ∑ k : Fin 256, lhs (ix2 p k) * rhs (ix2 k o) := by
  show FloatOps.matmul dot_S2048x256_S256x256_S2048x256_1_0_0_1_n_n none lhs rhs (constant S2048x256 .f32 0x00000000#32) (ix2 p o) = _
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p o) ((contrEquiv1 dot_S2048x256_S256x256_S2048x256_1_0_0_1_n_n 256 rfl rfl).symm k) = ix2 p k := funext fun a => Fin.ext (by
    match a with
    | ⟨0, _⟩ => exact lhs256_0 _ _
    | ⟨1, _⟩ => exact (lhs256_1 _ _).trans hk)
  have er : dot_S2048x256_S256x256_S2048x256_1_0_0_1_n_n.rhsIdx (ix2 p o) ((contrEquiv1 dot_S2048x256_S256x256_S2048x256_1_0_0_1_n_n 256 rfl rfl).symm k) = ix2 k o := funext fun a => Fin.ext (by
    match a with
    | ⟨0, _⟩ => exact (rhs256_0 _ _).trans hk
    | ⟨1, _⟩ => exact rhs256_1 _ _)
  rw [el, er]

/-- The layer before its activation: the rows h times the member's matrix, plus the member's bias row on every row. -/
abbrev pre256 (h : FVec Ideal S2048x256 .bf16) (W : Vec Ideal S1x256x256 .f32) (b : Vec Ideal S1x1x256 .f32) : FVec Ideal S2048x256 .f32 :=
  addf (matmul dot_S2048x256_S256x256_S2048x256_1_0_0_1_n_n none h (truncf .bf16 (shapeCast S256x256 W shapeCasts_S1x256x256_S256x256) bitsLt_bf16_f32) (constant S2048x256 .f32 0x00000000#32))
    (broadcastTo S2048x256 (shapeCast S1x256 b shapeCasts_S1x1x256_S1x256) broadcasts_S1x256_S2048x256)

/-- Row p of it is the dense map of row p of h. -/
theorem pre256_apply (h : FVec Ideal S2048x256 .bf16) (W : Vec Ideal S1x256x256 .f32) (b : Vec Ideal S1x1x256 .f32) (p : Fin 2048)
    (f : Fin 256 → EReal) (hf : (fun k => h (ix2 p k)) = f) (o : Fin 256) :
    pre256 h W b (ix2 p o) = dense f (slab W 0) (row11 b) o := by
  subst hf
  show matmul dot_S2048x256_S256x256_S2048x256_1_0_0_1_n_n none h (truncf .bf16 (shapeCast S256x256 W shapeCasts_S1x256x256_S256x256) bitsLt_bf16_f32) (constant S2048x256 .f32 0x00000000#32) (ix2 p o)
      + broadcastTo S2048x256 (shapeCast S1x256 b shapeCasts_S1x1x256_S1x256) broadcasts_S1x256_S2048x256 (ix2 p o) = _
  rw [matmul256_apply, broadcastTo_1b_ab_apply, shapeCast_1ab_ab_apply]
  refine congrArg (· + b (ix3 0 0 o)) (Finset.sum_congr rfl fun k _ => ?_)
  show h (ix2 p k) * shapeCast S256x256 W shapeCasts_S1x256x256_S256x256 (ix2 k o) = _
  rw [shapeCast_1ab_ab_apply]
  rfl

/-- The layer with its activation y · σ(y) (the change of float format is the identity on the extended reals). -/
abbrev act256 (h : FVec Ideal S2048x256 .bf16) (W : Vec Ideal S1x256x256 .f32) (b : Vec Ideal S1x1x256 .f32) : FVec Ideal S2048x256 .bf16 :=
  truncf .bf16 (mulf (pre256 h W b) (logistic (pre256 h W b))) bitsLt_bf16_f32

/-- Row p of it is the hidden layer of row p of h. -/
theorem act256_row (h : FVec Ideal S2048x256 .bf16) (W : Vec Ideal S1x256x256 .f32) (b : Vec Ideal S1x1x256 .f32) (p : Fin 2048)
    (f : Fin 256 → EReal) (hf : (fun k => h (ix2 p k)) = f) :
    (fun o => act256 h W b (ix2 p o)) = layer f (slab W 0) (row11 b) :=
  funext fun o => show swish (pre256 h W b (ix2 p o)) = swish _ from congrArg swish (pre256_apply h W b p f hf o)

/-! ### The product [2048, 256] · [256, 128] and the layer built on it -/

theorem lhs128_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs128_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs128_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs128_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- Entry (p, o) of the product into a zero accumulator is the sum over the contracted axis. -/
theorem matmul128_apply {φ₁ φ₂ : FTy} (lhs : FVec Ideal S2048x256 φ₁) (rhs : FVec Ideal S256x128 φ₂) (p : Fin 2048) (o : Fin 128) :
    matmul dot_S2048x256_S256x128_S2048x128_1_0_0_1_n_n none lhs rhs (constant S2048x128 .f32 0x00000000#32) (ix2 p o)
      = ∑ k : Fin 256, lhs (ix2 p k) * rhs (ix2 k o) := by
  show FloatOps.matmul dot_S2048x256_S256x128_S2048x128_1_0_0_1_n_n none lhs rhs (constant S2048x128 .f32 0x00000000#32) (ix2 p o) = _
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p o) ((contrEquiv1 dot_S2048x256_S256x128_S2048x128_1_0_0_1_n_n 256 rfl rfl).symm k) = ix2 p k := funext fun a => Fin.ext (by
    match a with
    | ⟨0, _⟩ => exact lhs128_0 _ _
    | ⟨1, _⟩ => exact (lhs128_1 _ _).trans hk)
  have er : dot_S2048x256_S256x128_S2048x128_1_0_0_1_n_n.rhsIdx (ix2 p o) ((contrEquiv1 dot_S2048x256_S256x128_S2048x128_1_0_0_1_n_n 256 rfl rfl).symm k) = ix2 k o := funext fun a => Fin.ext (by
    match a with
    | ⟨0, _⟩ => exact (rhs128_0 _ _).trans hk
    | ⟨1, _⟩ => exact rhs128_1 _ _)
  rw [el, er]

/-- The layer before its activation: the rows h times the member's matrix, plus the member's bias row on every row. -/
abbrev pre128 (h : FVec Ideal S2048x256 .bf16) (W : Vec Ideal S1x256x128 .f32) (b : Vec Ideal S1x1x128 .f32) : FVec Ideal S2048x128 .f32 :=
  addf (matmul dot_S2048x256_S256x128_S2048x128_1_0_0_1_n_n none h (truncf .bf16 (shapeCast S256x128 W shapeCasts_S1x256x128_S256x128) bitsLt_bf16_f32) (constant S2048x128 .f32 0x00000000#32))
    (broadcastTo S2048x128 (shapeCast S1x128 b shapeCasts_S1x1x128_S1x128) broadcasts_S1x128_S2048x128)

/-- Row p of it is the dense map of row p of h. -/
theorem pre128_apply (h : FVec Ideal S2048x256 .bf16) (W : Vec Ideal S1x256x128 .f32) (b : Vec Ideal S1x1x128 .f32) (p : Fin 2048)
    (f : Fin 256 → EReal) (hf : (fun k => h (ix2 p k)) = f) (o : Fin 128) :
    pre128 h W b (ix2 p o) = dense f (slab W 0) (row11 b) o := by
  subst hf
  show matmul dot_S2048x256_S256x128_S2048x128_1_0_0_1_n_n none h (truncf .bf16 (shapeCast S256x128 W shapeCasts_S1x256x128_S256x128) bitsLt_bf16_f32) (constant S2048x128 .f32 0x00000000#32) (ix2 p o)
      + broadcastTo S2048x128 (shapeCast S1x128 b shapeCasts_S1x1x128_S1x128) broadcasts_S1x128_S2048x128 (ix2 p o) = _
  rw [matmul128_apply, broadcastTo_1b_ab_apply, shapeCast_1ab_ab_apply]
  refine congrArg (· + b (ix3 0 0 o)) (Finset.sum_congr rfl fun k _ => ?_)
  show h (ix2 p k) * shapeCast S256x128 W shapeCasts_S1x256x128_S256x128 (ix2 k o) = _
  rw [shapeCast_1ab_ab_apply]
  rfl

/-- The layer with its activation y · σ(y) (the change of float format is the identity on the extended reals). -/
abbrev act128 (h : FVec Ideal S2048x256 .bf16) (W : Vec Ideal S1x256x128 .f32) (b : Vec Ideal S1x1x128 .f32) : FVec Ideal S2048x128 .bf16 :=
  truncf .bf16 (mulf (pre128 h W b) (logistic (pre128 h W b))) bitsLt_bf16_f32

/-- Row p of it is the hidden layer of row p of h. -/
theorem act128_row (h : FVec Ideal S2048x256 .bf16) (W : Vec Ideal S1x256x128 .f32) (b : Vec Ideal S1x1x128 .f32) (p : Fin 2048)
    (f : Fin 256 → EReal) (hf : (fun k => h (ix2 p k)) = f) :
    (fun o => act128 h W b (ix2 p o)) = layer f (slab W 0) (row11 b) :=
  funext fun o => show swish (pre128 h W b (ix2 p o)) = swish _ from congrArg swish (pre128_apply h W b p f hf o)

/-! ### The product [2048, 128] · [128, 32] and the layer built on it -/

theorem lhs32_0 (i : S2048x32.Idx) (q : dot_S2048x128_S128x32_S2048x32_1_0_0_1_n_n.contr.Idx) :
    (dot_S2048x128_S128x32_S2048x32_1_0_0_1_n_n.lhsIdx i q 0).val = (i 0).val := by
  unfold DotDims.lhsIdx
  rw [dif_neg (show ¬(0 : Fin S2048x128.rank) ∈ dot_S2048x128_S128x32_S2048x32_1_0_0_1_n_n.lhsBatch by decide), dif_pos (show (0 : Fin S2048x128.rank) ∈ dot_S2048x128_S128x32_S2048x32_1_0_0_1_n_n.lhsNonContracting by decide)]
  rfl
theorem lhs32_1 (i : S2048x32.Idx) (q : dot_S2048x128_S128x32_S2048x32_1_0_0_1_n_n.contr.Idx) :
    (dot_S2048x128_S128x32_S2048x32_1_0_0_1_n_n.lhsIdx i q 1).val = (q ⟨0, by decide⟩).val :=
  dot_S2048x128_S128x32_S2048x32_1_0_0_1_n_n.lhsIdx_val_of_single rfl i q
theorem rhs32_0 (i : S2048x32.Idx) (q : dot_S2048x128_S128x32_S2048x32_1_0_0_1_n_n.contr.Idx) :
    (dot_S2048x128_S128x32_S2048x32_1_0_0_1_n_n.rhsIdx i q 0).val = (q ⟨0, by decide⟩).val :=
  dot_S2048x128_S128x32_S2048x32_1_0_0_1_n_n.rhsIdx_val_of_single rfl i q
theorem rhs32_1 (i : S2048x32.Idx) (q : dot_S2048x128_S128x32_S2048x32_1_0_0_1_n_n.contr.Idx) :
    (dot_S2048x128_S128x32_S2048x32_1_0_0_1_n_n.rhsIdx i q 1).val = (i 1).val := by
  unfold DotDims.rhsIdx
  rw [dif_neg (show ¬(1 : Fin S128x32.rank) ∈ dot_S2048x128_S128x32_S2048x32_1_0_0_1_n_n.rhsBatch by decide), dif_pos (show (1 : Fin S128x32.rank) ∈ dot_S2048x128_S128x32_S2048x32_1_0_0_1_n_n.rhsNonContracting by decide)]
  rfl

/-- Entry (p, o) of the product into a zero accumulator is the sum over the contracted axis. -/
theorem matmul32_apply {φ₁ φ₂ : FTy} (lhs : FVec Ideal S2048x128 φ₁) (rhs : FVec Ideal S128x32 φ₂) (p : Fin 2048) (o : Fin 32) :
    matmul dot_S2048x128_S128x32_S2048x32_1_0_0_1_n_n none lhs rhs (constant S2048x32 .f32 0x00000000#32) (ix2 p o)
      = ∑ k : Fin 128, lhs (ix2 p k) * rhs (ix2 k o) := by
  show FloatOps.matmul dot_S2048x128_S128x32_S2048x32_1_0_0_1_n_n none lhs rhs (constant S2048x32 .f32 0x00000000#32) (ix2 p o) = _
  rw [Ideal.matmul_constant_zero_apply, ← Equiv.sum_comp (contrEquiv1 dot_S2048x128_S128x32_S2048x32_1_0_0_1_n_n 128 rfl rfl).symm]
  refine Finset.sum_congr rfl fun k _ => ?_
  have hk := contrEquiv1_symm_val dot_S2048x128_S128x32_S2048x32_1_0_0_1_n_n 128 rfl rfl k
  have el : dot_S2048x128_S128x32_S2048x32_1_0_0_1_n_n.lhsIdx (ix2 p o) ((contrEquiv1 dot_S2048x128_S128x32_S2048x32_1_0_0_1_n_n 128 rfl rfl).symm k) = ix2 p k := funext fun a => Fin.ext (by
    match a with
    | ⟨0, _⟩ => exact lhs32_0 _ _
    | ⟨1, _⟩ => exact (lhs32_1 _ _).trans hk)
  have er : dot_S2048x128_S128x32_S2048x32_1_0_0_1_n_n.rhsIdx (ix2 p o) ((contrEquiv1 dot_S2048x128_S128x32_S2048x32_1_0_0_1_n_n 128 rfl rfl).symm k) = ix2 k o := funext fun a => Fin.ext (by
    match a with
    | ⟨0, _⟩ => exact (rhs32_0 _ _).trans hk
    | ⟨1, _⟩ => exact rhs32_1 _ _)
  rw [el, er]

/-- The layer before its activation: the rows h times the member's matrix, plus the member's bias row on every row. -/
abbrev pre32 (h : FVec Ideal S2048x128 .bf16) (W : Vec Ideal S1x128x32 .f32) (b : Vec Ideal S1x1x32 .f32) : FVec Ideal S2048x32 .f32 :=
  addf (matmul dot_S2048x128_S128x32_S2048x32_1_0_0_1_n_n none h (truncf .bf16 (shapeCast S128x32 W shapeCasts_S1x128x32_S128x32) bitsLt_bf16_f32) (constant S2048x32 .f32 0x00000000#32))
    (broadcastTo S2048x32 (shapeCast S1x32 b shapeCasts_S1x1x32_S1x32) broadcasts_S1x32_S2048x32)

/-- Row p of it is the dense map of row p of h. -/
theorem pre32_apply (h : FVec Ideal S2048x128 .bf16) (W : Vec Ideal S1x128x32 .f32) (b : Vec Ideal S1x1x32 .f32) (p : Fin 2048)
    (f : Fin 128 → EReal) (hf : (fun k => h (ix2 p k)) = f) (o : Fin 32) :
    pre32 h W b (ix2 p o) = dense f (slab W 0) (row11 b) o := by
  subst hf
  show matmul dot_S2048x128_S128x32_S2048x32_1_0_0_1_n_n none h (truncf .bf16 (shapeCast S128x32 W shapeCasts_S1x128x32_S128x32) bitsLt_bf16_f32) (constant S2048x32 .f32 0x00000000#32) (ix2 p o)
      + broadcastTo S2048x32 (shapeCast S1x32 b shapeCasts_S1x1x32_S1x32) broadcasts_S1x32_S2048x32 (ix2 p o) = _
  rw [matmul32_apply, broadcastTo_1b_ab_apply, shapeCast_1ab_ab_apply]
  refine congrArg (· + b (ix3 0 0 o)) (Finset.sum_congr rfl fun k _ => ?_)
  show h (ix2 p k) * shapeCast S128x32 W shapeCasts_S1x128x32_S128x32 (ix2 k o) = _
  rw [shapeCast_1ab_ab_apply]
  rfl

/-- The layer with its activation y · σ(y) (the change of float format is the identity on the extended reals). -/
abbrev act32 (h : FVec Ideal S2048x128 .bf16) (W : Vec Ideal S1x128x32 .f32) (b : Vec Ideal S1x1x32 .f32) : FVec Ideal S2048x32 .bf16 :=
  truncf .bf16 (mulf (pre32 h W b) (logistic (pre32 h W b))) bitsLt_bf16_f32

/-- Row p of it is the hidden layer of row p of h. -/
theorem act32_row (h : FVec Ideal S2048x128 .bf16) (W : Vec Ideal S1x128x32 .f32) (b : Vec Ideal S1x1x32 .f32) (p : Fin 2048)
    (f : Fin 128 → EReal) (hf : (fun k => h (ix2 p k)) = f) :
    (fun o => act32 h W b (ix2 p o)) = layer f (slab W 0) (row11 b) :=
  funext fun o => show swish (pre32 h W b (ix2 p o)) = swish _ from congrArg swish (pre32_apply h W b p f hf o)

/-! ## The row [state, action] -/

/-- Row p of the concatenation of the state block and the action block is the joined row. -/
theorem cat_row (v0 : Vec Ideal S2048x32 .f32) (v1 : Vec Ideal S2048x8 .f32) (p : Fin 2048) :
    (fun k => (truncf .bf16 (concatenate S2048x40 1 [⟨S2048x32, v0⟩, ⟨S2048x8, v1⟩] concatenates_S2048x32_S2048x8_S2048x40_d1) bitsLt_bf16_f32 : FVec Ideal S2048x40 .bf16) (ix2 p k))
      = catRow (row v0 p) (row v1 p) := by
  funext k
  show concatenate S2048x40 1 [⟨S2048x32, v0⟩, ⟨S2048x8, v1⟩] concatenates_S2048x32_S2048x8_S2048x40_d1 (ix2 p k) = catRow (row v0 p) (row v1 p) k
  unfold catRow
  by_cases h : k.val < 32
  · rw [dif_pos h]
    exact concatenate_pair_apply_left 1 v0 v1 _ (ix2 p k) rfl (ix2 p ⟨k.val, h⟩) (fun b => by
      match b with
      | ⟨0, _⟩ => rfl
      | ⟨1, _⟩ => rfl)
  · rw [dif_neg h]
    have hk := k.isLt
    exact concatenate_pair_apply_right 1 v0 v1 _ (ix2 p k) rfl rfl (ix2 p ⟨k.val - 32, by omega⟩) (fun b hb => by
      match b with
      | ⟨0, _⟩ => rfl
      | ⟨1, _⟩ => exact absurd rfl hb) (by show (k.val - 32) + 32 = k.val; omega)

/-! ## The body's values -/

section
variable (v0 : Vec Ideal S2048x32 .f32) (v1 : Vec Ideal S2048x8 .f32) (v4 : Vec Ideal S1x40x256 .f32) (v8 : Vec Ideal S1x1x256 .f32)
  (v15 : Vec Ideal S1x256x256 .f32) (v19 : Vec Ideal S1x1x256 .f32) (v26 : Vec Ideal S1x256x256 .f32) (v30 : Vec Ideal S1x1x256 .f32)
  (v37 : Vec Ideal S1x256x128 .f32) (v41 : Vec Ideal S1x1x128 .f32)

/-- The last hidden activation as the body computes it, from the blocks it loads. -/
abbrev hid : FVec Ideal S2048x128 .bf16 :=
  k0_pay5 (k0_pay3 v0 v1 v4 v8 v15 v19 v26) (k0_pay4 v30) v37 v41

/-- The body's last hidden activation is the four layers applied one after the other. -/
theorem hid_eq : hid v0 v1 v4 v8 v15 v19 v26 v30 v37 v41
    = act128 (act256 (act256 (act40 (truncf .bf16 (concatenate S2048x40 1 [⟨S2048x32, v0⟩, ⟨S2048x8, v1⟩] concatenates_S2048x32_S2048x8_S2048x40_d1) bitsLt_bf16_f32) v4 v8) v15 v19) v26 v30) v37 v41 := rfl

/-- Row p of the body's last hidden activation is the specification's hidden row of row p of the block. -/
theorem hid_row (p : Fin 2048) :
    (fun k => hid v0 v1 v4 v8 v15 v19 v26 v30 v37 v41 (ix2 p k)) = hiddenBlk v0 v1 v4 v8 v15 v19 v26 v30 v37 v41 p := by
  rw [hid_eq]
  exact act128_row _ v37 v41 p _ (act256_row _ v26 v30 p _ (act256_row _ v15 v19 p _ (act40_row _ v4 v8 p _ (cat_row v0 v1 p))))

/-- The mean the body stores, at row p and column o of its [1, 2048, 32] block. -/
theorem mu_apply (v48 : Vec Ideal S1x128x32 .f32) (v52 : Vec Ideal S1x1x32 .f32) (u : Fin 1) (p : Fin 2048) (o : Fin 32) :
    k0_pay1 v0 (k0_pay6 (k0_pay3 v0 v1 v4 v8 v15 v19 v26) (k0_pay4 v30) v37 v41 v48 v52) (ix3 u p o)
      = muBlk v0 v1 v4 v8 v15 v19 v26 v30 v37 v41 v48 v52 p o := by
  show shapeCast S1x2048x32 (addf (pre32 (hid v0 v1 v4 v8 v15 v19 v26 v30 v37 v41) v48 v52) v0) shapeCasts_S2048x32_S1x2048x32 (ix3 u p o) = _
  rw [shapeCast_ab_1ab_apply]
  show pre32 (hid v0 v1 v4 v8 v15 v19 v26 v30 v37 v41) v48 v52 (ix2 p o) + v0 (ix2 p o) = _
  rw [pre32_apply _ v48 v52 p _ (hid_row v0 v1 v4 v8 v15 v19 v26 v30 v37 v41 p) o]
  rfl

end

/-! ## The deviation -/

/-- The body's zero is the real number zero. -/
theorem zero_word : (Scalar.ofBits .f32 0x00000000#32 : Ideal .f32) = 0 := Ideal.ofBits_zero_f32

/-- What the body stores as the deviation, at row p and column o: the bounds are rows broadcast over the block, every
    other operation acts entry by entry, and the two guarded softplus spellings are softplus. -/
theorem pay2_apply (v63 : FVec Ideal S2048x32 .f32) (v65 v67 : FVec Ideal S1x32 .f32) (u : Fin 1) (p : Fin 2048) (o : Fin 32) :
    k0_pay2 v63 v65 v67 (ix3 u p o) = clampExp (v67 (ix2 0 o)) (v65 (ix2 0 o)) (v63 (ix2 p o)) := by
  unfold k0_pay2
  rw [shapeCast_ab_1ab_apply]
  simp only [exp_at, log1p_at, absf_at, addf_apply, subf_apply, maximumf_apply, select_apply, cmpf_apply, broadcast_apply,
    broadcastTo_1b_ab_apply, Ideal.cmpf_def, zero_word]
  simp only [softplus_sub]
  rfl

/-- The deviation the body stores, at row p and column o of its [1, 2048, 32] block. -/
theorem sig_apply (v0 : Vec Ideal S2048x32 .f32) (v1 : Vec Ideal S2048x8 .f32) (v4 : Vec Ideal S1x40x256 .f32) (v8 : Vec Ideal S1x1x256 .f32)
    (v15 : Vec Ideal S1x256x256 .f32) (v19 : Vec Ideal S1x1x256 .f32) (v26 : Vec Ideal S1x256x256 .f32) (v30 : Vec Ideal S1x1x256 .f32)
    (v37 : Vec Ideal S1x256x128 .f32) (v41 : Vec Ideal S1x1x128 .f32)
    (v56 : Vec Ideal S1x128x32 .f32) (v60 : Vec Ideal S1x1x32 .f32) (v64 v66 : Vec Ideal S1x32 .f32)
    (u : Fin 1) (p : Fin 2048) (o : Fin 32) :
    k0_pay2 (k0_pay7 (k0_pay3 v0 v1 v4 v8 v15 v19 v26) (k0_pay4 v30) v37 v41 v56 v60) (k0_pay8 v64) (k0_pay9 v66) (ix3 u p o)
      = sigBlk v0 v1 v4 v8 v15 v19 v26 v30 v37 v41 v56 v60 v64 v66 p o := by
  rw [pay2_apply]
  show clampExp (shapeCast S1x32 v66 shapeCasts_S1x32_S1x32 (ix2 0 o)) (shapeCast S1x32 v64 shapeCasts_S1x32_S1x32 (ix2 0 o))
      (pre32 (hid v0 v1 v4 v8 v15 v19 v26 v30 v37 v41) v56 v60 (ix2 p o)) = _
  rw [shapeCast_self, shapeCast_self, pre32_apply _ v56 v60 p _ (hid_row v0 v1 v4 v8 v15 v19 v26 v30 v37 v41 p) o]
  rfl

end Cert.KernelIdeal.Rows

end
-- ==== Proof.KernelBlocks.lean ====
/-
  From grid points to whole arrays.

  The grid has 16 × 7 points; point (i, e) holds rows 2048·i … 2048·i + 2047 of state and action, member e's weights
  and biases (each bias a [7, n] array viewed [7, 1, n] before the launch), the two bounds viewed [1, 32], and writes
  block (e, i) — rows 2048·i … of member e — of each result. So what a point writes back is the specification's array
  read through that block, the blocks tile both results, and after the run each result array is the specification's.
-/
import proofs.«142831_j987842478670_1_alg».proof.Proof.KernelValue
import proofs.«142831_j987842478670_1_alg».proof.Proof.KernelRows
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.EnsembleMlp
open Idealize.ShloMosaic.Pipeline (Dat)

variable (m : (ℓ : Loc nD τ sig) → Buf (Elt Ideal) ℓ) (ρ : Dev nD → PrngReg)

/-! ## The arrays the launch finds: the biases and bounds are the arguments, re-viewed -/

theorem V_b0 (c : Dev nD) : (V m c main_v0 : S7x1x256.Idx → EReal) = shapeCast S7x1x256 (m ((c : Thread nD τ).loc main_arg3)) shapeCasts_S7x256_S7x1x256 := by
  dsimp only [V, hostOps0]; after_results; rfl
theorem V_b1 (c : Dev nD) : (V m c main_v1 : S7x1x256.Idx → EReal) = shapeCast S7x1x256 (m ((c : Thread nD τ).loc main_arg5)) shapeCasts_S7x256_S7x1x256 := by
  dsimp only [V, hostOps0]; after_results; rfl
theorem V_b2 (c : Dev nD) : (V m c main_v2 : S7x1x256.Idx → EReal) = shapeCast S7x1x256 (m ((c : Thread nD τ).loc main_arg7)) shapeCasts_S7x256_S7x1x256 := by
  dsimp only [V, hostOps0]; after_results; rfl
theorem V_b3 (c : Dev nD) : (V m c main_v3 : S7x1x128.Idx → EReal) = shapeCast S7x1x128 (m ((c : Thread nD τ).loc main_arg9)) shapeCasts_S7x128_S7x1x128 := by
  dsimp only [V, hostOps0]; after_results; rfl
theorem V_bmu (c : Dev nD) : (V m c main_v4 : S7x1x32.Idx → EReal) = shapeCast S7x1x32 (m ((c : Thread nD τ).loc main_arg11)) shapeCasts_S7x32_S7x1x32 := by
  dsimp only [V, hostOps0]; after_results; rfl
theorem V_bsig (c : Dev nD) : (V m c main_v5 : S7x1x32.Idx → EReal) = shapeCast S7x1x32 (m ((c : Thread nD τ).loc main_arg13)) shapeCasts_S7x32_S7x1x32 := by
  dsimp only [V, hostOps0]; after_results; rfl

theorem V_hi (c : Dev nD) : (V m c main_v6 : S1x32.Idx → EReal) = shapeCast S1x32 (m ((c : Thread nD τ).loc main_arg14)) shapeCasts_S32_S1x32 := by
  dsimp only [V, hostOps0]; after_results; rfl
theorem V_lo (c : Dev nD) : (V m c main_v7 : S1x32.Idx → EReal) = shapeCast S1x32 (m ((c : Thread nD τ).loc main_arg15)) shapeCasts_S32_S1x32 := by
  dsimp only [V, hostOps0]; after_results; rfl

/-- A [7, n] array viewed [7, 1, n] reads (e, 0, o) at (e, o): the two positions in row-major order agree. -/
theorem cast_bias {n : ℕ} (b : (⟨2, ![7, n]⟩ : Shape).Idx → EReal) (h : (⟨2, ![7, n]⟩ : Shape).ShapeCasts ⟨3, ![7, 1, n]⟩)
    (e : Fin 7) (o : Fin n) : shapeCast ⟨3, ![7, 1, n]⟩ b h (ix3 e (0 : Fin 1) o) = b (ix2 e o) :=
  shapeCast_apply b h _ _ (by
    rw [Shape.rowMajor_val_two, Shape.rowMajor_val_three]
    show e.val * n + o.val = (e.val * 1 + 0) * n + o.val
    rw [Nat.mul_one, Nat.add_zero])

/-! ## The index maps, decided once over the 112 grid points -/

theorem idx_rows : ∀ t : Fin cfg0.N, win0_0.index t (0 : Fin 2) = win0_16.index t (1 : Fin 3) ∧ win0_0.index t (1 : Fin 2) = 0
    ∧ win0_1.index t (0 : Fin 2) = win0_16.index t (1 : Fin 3) ∧ win0_1.index t (1 : Fin 2) = 0
    ∧ win0_16.index t (0 : Fin 3) ≤ 6 ∧ win0_16.index t (1 : Fin 3) ≤ 15 ∧ win0_16.index t (2 : Fin 3) = 0
    ∧ win0_17.index t (0 : Fin 3) = win0_16.index t (0 : Fin 3) ∧ win0_17.index t (1 : Fin 3) = win0_16.index t (1 : Fin 3)
    ∧ win0_17.index t (2 : Fin 3) = 0
    ∧ win0_14.index t (0 : Fin 2) = 0 ∧ win0_14.index t (1 : Fin 2) = 0 ∧ win0_15.index t (0 : Fin 2) = 0 ∧ win0_15.index t (1 : Fin 2) = 0 :=
  (by decide +kernel : ∀ t : Fin grid0.N, _)

theorem idx_weights : ∀ t : Fin cfg0.N, win0_2.index t (0 : Fin 3) = win0_16.index t (0 : Fin 3) ∧ win0_2.index t (1 : Fin 3) = 0 ∧ win0_2.index t (2 : Fin 3) = 0
    ∧ win0_4.index t (0 : Fin 3) = win0_16.index t (0 : Fin 3) ∧ win0_4.index t (1 : Fin 3) = 0 ∧ win0_4.index t (2 : Fin 3) = 0
    ∧ win0_6.index t (0 : Fin 3) = win0_16.index t (0 : Fin 3) ∧ win0_6.index t (1 : Fin 3) = 0 ∧ win0_6.index t (2 : Fin 3) = 0
    ∧ win0_8.index t (0 : Fin 3) = win0_16.index t (0 : Fin 3) ∧ win0_8.index t (1 : Fin 3) = 0 ∧ win0_8.index t (2 : Fin 3) = 0
    ∧ win0_10.index t (0 : Fin 3) = win0_16.index t (0 : Fin 3) ∧ win0_10.index t (1 : Fin 3) = 0 ∧ win0_10.index t (2 : Fin 3) = 0
    ∧ win0_12.index t (0 : Fin 3) = win0_16.index t (0 : Fin 3) ∧ win0_12.index t (1 : Fin 3) = 0 ∧ win0_12.index t (2 : Fin 3) = 0 :=
  (by decide +kernel : ∀ t : Fin grid0.N, _)

theorem idx_biases : ∀ t : Fin cfg0.N, win0_3.index t (0 : Fin 3) = win0_16.index t (0 : Fin 3) ∧ win0_3.index t (1 : Fin 3) = 0 ∧ win0_3.index t (2 : Fin 3) = 0
    ∧ win0_5.index t (0 : Fin 3) = win0_16.index t (0 : Fin 3) ∧ win0_5.index t (1 : Fin 3) = 0 ∧ win0_5.index t (2 : Fin 3) = 0
    ∧ win0_7.index t (0 : Fin 3) = win0_16.index t (0 : Fin 3) ∧ win0_7.index t (1 : Fin 3) = 0 ∧ win0_7.index t (2 : Fin 3) = 0
    ∧ win0_9.index t (0 : Fin 3) = win0_16.index t (0 : Fin 3) ∧ win0_9.index t (1 : Fin 3) = 0 ∧ win0_9.index t (2 : Fin 3) = 0
    ∧ win0_11.index t (0 : Fin 3) = win0_16.index t (0 : Fin 3) ∧ win0_11.index t (1 : Fin 3) = 0 ∧ win0_11.index t (2 : Fin 3) = 0
    ∧ win0_13.index t (0 : Fin 3) = win0_16.index t (0 : Fin 3) ∧ win0_13.index t (1 : Fin 3) = 0 ∧ win0_13.index t (2 : Fin 3) = 0 :=
  (by decide +kernel : ∀ t : Fin grid0.N, _)

/-- Every (member, row block) pair is some point's. -/
theorem idx_onto : ∀ (q0 : Fin 7) (q1 : Fin 16), ∃ t : Fin cfg0.N, win0_16.index t = ![q0.val, q1.val, 0] :=
  (by decide +kernel : ∀ (q0 : Fin 7) (q1 : Fin 16), ∃ t : Fin grid0.N, win0_16.index t = ![q0.val, q1.val, 0])

/-- The member a point works on. -/
def memberOf (t : Fin cfg0.N) : Fin 7 := ⟨win0_16.index t (0 : Fin 3), by have := (idx_rows t).2.2.2.2.1; omega⟩

/-- The batch row that row p of a point's block is. -/
def rowOf (t : Fin cfg0.N) (p : Fin 2048) : Fin 32768 :=
  ⟨win0_16.index t (1 : Fin 3) * 2048 + p.val, by have := (idx_rows t).2.2.2.2.2.1; have := p.isLt; omega⟩

/-! ## The blocks a point loads, as rows and slabs of the arrays -/

abbrev B0 (c : Dev nD) (t : Fin cfg0.N) : Vec Ideal S2048x32 .f32 := iblk m c 0 t
abbrev B1 (c : Dev nD) (t : Fin cfg0.N) : Vec Ideal S2048x8 .f32 := iblk m c 1 t
abbrev B2 (c : Dev nD) (t : Fin cfg0.N) : Vec Ideal S1x40x256 .f32 := iblk m c 2 t
abbrev B3 (c : Dev nD) (t : Fin cfg0.N) : Vec Ideal S1x1x256 .f32 := iblk m c 3 t
abbrev B4 (c : Dev nD) (t : Fin cfg0.N) : Vec Ideal S1x256x256 .f32 := iblk m c 4 t
abbrev B5 (c : Dev nD) (t : Fin cfg0.N) : Vec Ideal S1x1x256 .f32 := iblk m c 5 t
abbrev B6 (c : Dev nD) (t : Fin cfg0.N) : Vec Ideal S1x256x256 .f32 := iblk m c 6 t
abbrev B7 (c : Dev nD) (t : Fin cfg0.N) : Vec Ideal S1x1x256 .f32 := iblk m c 7 t
abbrev B8 (c : Dev nD) (t : Fin cfg0.N) : Vec Ideal S1x256x128 .f32 := iblk m c 8 t
abbrev B9 (c : Dev nD) (t : Fin cfg0.N) : Vec Ideal S1x1x128 .f32 := iblk m c 9 t
abbrev B10 (c : Dev nD) (t : Fin cfg0.N) : Vec Ideal S1x128x32 .f32 := iblk m c 10 t
abbrev B11 (c : Dev nD) (t : Fin cfg0.N) : Vec Ideal S1x1x32 .f32 := iblk m c 11 t
abbrev B12 (c : Dev nD) (t : Fin cfg0.N) : Vec Ideal S1x128x32 .f32 := iblk m c 12 t
abbrev B13 (c : Dev nD) (t : Fin cfg0.N) : Vec Ideal S1x1x32 .f32 := iblk m c 13 t
abbrev B14 (c : Dev nD) (t : Fin cfg0.N) : Vec Ideal S1x32 .f32 := iblk m c 14 t
abbrev B15 (c : Dev nD) (t : Fin cfg0.N) : Vec Ideal S1x32 .f32 := iblk m c 15 t

theorem blk_state (c : Dev nD) (t : Fin cfg0.N) (p : Fin 2048) : row (B0 m c t) p = row (m ((c : Thread nD τ).loc main_arg0)) (rowOf t p) := by
  funext j
  show V m c main_arg0 (((cfg0.win 0).blk t).view.emb (ix2 p j)) = (m ((c : Thread nD τ).loc main_arg0)) (ix2 (rowOf t p) j)
  rw [V_main_arg0]
  refine congrArg _ (funext fun a => Fin.ext ?_)
  obtain ⟨e0, e1, -⟩ := idx_rows t
  match a with
  | ⟨0, _⟩ => show win0_0.index t (0 : Fin 2) * 2048 + 1 * p.val = win0_16.index t (1 : Fin 3) * 2048 + p.val; omega
  | ⟨1, _⟩ => show win0_0.index t (1 : Fin 2) * 32 + 1 * j.val = j.val; omega

theorem blk_action (c : Dev nD) (t : Fin cfg0.N) (p : Fin 2048) : row (B1 m c t) p = row (m ((c : Thread nD τ).loc main_arg1)) (rowOf t p) := by
  funext j
  show V m c main_arg1 (((cfg0.win 1).blk t).view.emb (ix2 p j)) = (m ((c : Thread nD τ).loc main_arg1)) (ix2 (rowOf t p) j)
  rw [V_main_arg1]
  refine congrArg _ (funext fun a => Fin.ext ?_)
  obtain ⟨-, -, e2, e3, -⟩ := idx_rows t
  match a with
  | ⟨0, _⟩ => show win0_1.index t (0 : Fin 2) * 2048 + 1 * p.val = win0_16.index t (1 : Fin 3) * 2048 + p.val; omega
  | ⟨1, _⟩ => show win0_1.index t (1 : Fin 2) * 8 + 1 * j.val = j.val; omega

theorem blk_W0 (c : Dev nD) (t : Fin cfg0.N) : slab (B2 m c t) 0 = slab (m ((c : Thread nD τ).loc main_arg2)) (memberOf t) := by
  funext k o
  show V m c main_arg2 (((cfg0.win 2).blk t).view.emb (ix3 (0 : Fin 1) k o)) = (m ((c : Thread nD τ).loc main_arg2)) (ix3 (memberOf t) k o)
  rw [V_main_arg2]
  refine congrArg _ (funext fun a => Fin.ext ?_)
  have hw := idx_weights t
  match a with
  | ⟨0, _⟩ => show win0_2.index t (0 : Fin 3) * 1 + 1 * 0 = win0_16.index t (0 : Fin 3); omega
  | ⟨1, _⟩ => show win0_2.index t (1 : Fin 3) * 40 + 1 * k.val = k.val; omega
  | ⟨2, _⟩ => show win0_2.index t (2 : Fin 3) * 256 + 1 * o.val = o.val; omega

theorem blk_W1 (c : Dev nD) (t : Fin cfg0.N) : slab (B4 m c t) 0 = slab (m ((c : Thread nD τ).loc main_arg4)) (memberOf t) := by
  funext k o
  show V m c main_arg4 (((cfg0.win 4).blk t).view.emb (ix3 (0 : Fin 1) k o)) = (m ((c : Thread nD τ).loc main_arg4)) (ix3 (memberOf t) k o)
  rw [V_main_arg4]
  refine congrArg _ (funext fun a => Fin.ext ?_)
  have hw := idx_weights t
  match a with
  | ⟨0, _⟩ => show win0_4.index t (0 : Fin 3) * 1 + 1 * 0 = win0_16.index t (0 : Fin 3); omega
  | ⟨1, _⟩ => show win0_4.index t (1 : Fin 3) * 256 + 1 * k.val = k.val; omega
  | ⟨2, _⟩ => show win0_4.index t (2 : Fin 3) * 256 + 1 * o.val = o.val; omega

theorem blk_W2 (c : Dev nD) (t : Fin cfg0.N) : slab (B6 m c t) 0 = slab (m ((c : Thread nD τ).loc main_arg6)) (memberOf t) := by
  funext k o
  show V m c main_arg6 (((cfg0.win 6).blk t).view.emb (ix3 (0 : Fin 1) k o)) = (m ((c : Thread nD τ).loc main_arg6)) (ix3 (memberOf t) k o)
  rw [V_main_arg6]
  refine congrArg _ (funext fun a => Fin.ext ?_)
  have hw := idx_weights t
  match a with
  | ⟨0, _⟩ => show win0_6.index t (0 : Fin 3) * 1 + 1 * 0 = win0_16.index t (0 : Fin 3); omega
  | ⟨1, _⟩ => show win0_6.index t (1 : Fin 3) * 256 + 1 * k.val = k.val; omega
  | ⟨2, _⟩ => show win0_6.index t (2 : Fin 3) * 256 + 1 * o.val = o.val; omega

theorem blk_W3 (c : Dev nD) (t : Fin cfg0.N) : slab (B8 m c t) 0 = slab (m ((c : Thread nD τ).loc main_arg8)) (memberOf t) := by
  funext k o
  show V m c main_arg8 (((cfg0.win 8).blk t).view.emb (ix3 (0 : Fin 1) k o)) = (m ((c : Thread nD τ).loc main_arg8)) (ix3 (memberOf t) k o)
  rw [V_main_arg8]
  refine congrArg _ (funext fun a => Fin.ext ?_)
  have hw := idx_weights t
  match a with
  | ⟨0, _⟩ => show win0_8.index t (0 : Fin 3) * 1 + 1 * 0 = win0_16.index t (0 : Fin 3); omega
  | ⟨1, _⟩ => show win0_8.index t (1 : Fin 3) * 256 + 1 * k.val = k.val; omega
  | ⟨2, _⟩ => show win0_8.index t (2 : Fin 3) * 128 + 1 * o.val = o.val; omega

theorem blk_Wmu (c : Dev nD) (t : Fin cfg0.N) : slab (B10 m c t) 0 = slab (m ((c : Thread nD τ).loc main_arg10)) (memberOf t) := by
  funext k o
  show V m c main_arg10 (((cfg0.win 10).blk t).view.emb (ix3 (0 : Fin 1) k o)) = (m ((c : Thread nD τ).loc main_arg10)) (ix3 (memberOf t) k o)
  rw [V_main_arg10]
  refine congrArg _ (funext fun a => Fin.ext ?_)
  have hw := idx_weights t
  match a with
  | ⟨0, _⟩ => show win0_10.index t (0 : Fin 3) * 1 + 1 * 0 = win0_16.index t (0 : Fin 3); omega
  | ⟨1, _⟩ => show win0_10.index t (1 : Fin 3) * 128 + 1 * k.val = k.val; omega
  | ⟨2, _⟩ => show win0_10.index t (2 : Fin 3) * 32 + 1 * o.val = o.val; omega

theorem blk_Wsig (c : Dev nD) (t : Fin cfg0.N) : slab (B12 m c t) 0 = slab (m ((c : Thread nD τ).loc main_arg12)) (memberOf t) := by
  funext k o
  show V m c main_arg12 (((cfg0.win 12).blk t).view.emb (ix3 (0 : Fin 1) k o)) = (m ((c : Thread nD τ).loc main_arg12)) (ix3 (memberOf t) k o)
  rw [V_main_arg12]
  refine congrArg _ (funext fun a => Fin.ext ?_)
  have hw := idx_weights t
  match a with
  | ⟨0, _⟩ => show win0_12.index t (0 : Fin 3) * 1 + 1 * 0 = win0_16.index t (0 : Fin 3); omega
  | ⟨1, _⟩ => show win0_12.index t (1 : Fin 3) * 128 + 1 * k.val = k.val; omega
  | ⟨2, _⟩ => show win0_12.index t (2 : Fin 3) * 32 + 1 * o.val = o.val; omega

theorem blk_b0 (c : Dev nD) (t : Fin cfg0.N) : row11 (B3 m c t) = row (m ((c : Thread nD τ).loc main_arg3)) (memberOf t) := by
  funext o
  show V m c main_v0 (((cfg0.win 3).blk t).view.emb (ix3 (0 : Fin 1) (0 : Fin 1) o)) = (m ((c : Thread nD τ).loc main_arg3)) (ix2 (memberOf t) o)
  have hemb : ((cfg0.win 3).blk t).view.emb (ix3 (0 : Fin 1) (0 : Fin 1) o) = ix3 (memberOf t) (0 : Fin 1) o := by
    refine funext fun a => Fin.ext ?_
    have hb := idx_biases t
    match a with
    | ⟨0, _⟩ => show win0_3.index t (0 : Fin 3) * 1 + 1 * 0 = win0_16.index t (0 : Fin 3); omega
    | ⟨1, _⟩ => show win0_3.index t (1 : Fin 3) * 1 + 1 * 0 = 0; omega
    | ⟨2, _⟩ => show win0_3.index t (2 : Fin 3) * 256 + 1 * o.val = o.val; omega
  rw [hemb, V_b0]
  exact cast_bias _ _ (memberOf t) o

theorem blk_b1 (c : Dev nD) (t : Fin cfg0.N) : row11 (B5 m c t) = row (m ((c : Thread nD τ).loc main_arg5)) (memberOf t) := by
  funext o
  show V m c main_v1 (((cfg0.win 5).blk t).view.emb (ix3 (0 : Fin 1) (0 : Fin 1) o)) = (m ((c : Thread nD τ).loc main_arg5)) (ix2 (memberOf t) o)
  have hemb : ((cfg0.win 5).blk t).view.emb (ix3 (0 : Fin 1) (0 : Fin 1) o) = ix3 (memberOf t) (0 : Fin 1) o := by
    refine funext fun a => Fin.ext ?_
    have hb := idx_biases t
    match a with
    | ⟨0, _⟩ => show win0_5.index t (0 : Fin 3) * 1 + 1 * 0 = win0_16.index t (0 : Fin 3); omega
    | ⟨1, _⟩ => show win0_5.index t (1 : Fin 3) * 1 + 1 * 0 = 0; omega
    | ⟨2, _⟩ => show win0_5.index t (2 : Fin 3) * 256 + 1 * o.val = o.val; omega
  rw [hemb, V_b1]
  exact cast_bias _ _ (memberOf t) o

theorem blk_b2 (c : Dev nD) (t : Fin cfg0.N) : row11 (B7 m c t) = row (m ((c : Thread nD τ).loc main_arg7)) (memberOf t) := by
  funext o
  show V m c main_v2 (((cfg0.win 7).blk t).view.emb (ix3 (0 : Fin 1) (0 : Fin 1) o)) = (m ((c : Thread nD τ).loc main_arg7)) (ix2 (memberOf t) o)
  have hemb : ((cfg0.win 7).blk t).view.emb (ix3 (0 : Fin 1) (0 : Fin 1) o) = ix3 (memberOf t) (0 : Fin 1) o := by
    refine funext fun a => Fin.ext ?_
    have hb := idx_biases t
    match a with
    | ⟨0, _⟩ => show win0_7.index t (0 : Fin 3) * 1 + 1 * 0 = win0_16.index t (0 : Fin 3); omega
    | ⟨1, _⟩ => show win0_7.index t (1 : Fin 3) * 1 + 1 * 0 = 0; omega
    | ⟨2, _⟩ => show win0_7.index t (2 : Fin 3) * 256 + 1 * o.val = o.val; omega
  rw [hemb, V_b2]
  exact cast_bias _ _ (memberOf t) o

theorem blk_b3 (c : Dev nD) (t : Fin cfg0.N) : row11 (B9 m c t) = row (m ((c : Thread nD τ).loc main_arg9)) (memberOf t) := by
  funext o
  show V m c main_v3 (((cfg0.win 9).blk t).view.emb (ix3 (0 : Fin 1) (0 : Fin 1) o)) = (m ((c : Thread nD τ).loc main_arg9)) (ix2 (memberOf t) o)
  have hemb : ((cfg0.win 9).blk t).view.emb (ix3 (0 : Fin 1) (0 : Fin 1) o) = ix3 (memberOf t) (0 : Fin 1) o := by
    refine funext fun a => Fin.ext ?_
    have hb := idx_biases t
    match a with
    | ⟨0, _⟩ => show win0_9.index t (0 : Fin 3) * 1 + 1 * 0 = win0_16.index t (0 : Fin 3); omega
    | ⟨1, _⟩ => show win0_9.index t (1 : Fin 3) * 1 + 1 * 0 = 0; omega
    | ⟨2, _⟩ => show win0_9.index t (2 : Fin 3) * 128 + 1 * o.val = o.val; omega
  rw [hemb, V_b3]
  exact cast_bias _ _ (memberOf t) o

theorem blk_bmu (c : Dev nD) (t : Fin cfg0.N) : row11 (B11 m c t) = row (m ((c : Thread nD τ).loc main_arg11)) (memberOf t) := by
  funext o
  show V m c main_v4 (((cfg0.win 11).blk t).view.emb (ix3 (0 : Fin 1) (0 : Fin 1) o)) = (m ((c : Thread nD τ).loc main_arg11)) (ix2 (memberOf t) o)
  have hemb : ((cfg0.win 11).blk t).view.emb (ix3 (0 : Fin 1) (0 : Fin 1) o) = ix3 (memberOf t) (0 : Fin 1) o := by
    refine funext fun a => Fin.ext ?_
    have hb := idx_biases t
    match a with
    | ⟨0, _⟩ => show win0_11.index t (0 : Fin 3) * 1 + 1 * 0 = win0_16.index t (0 : Fin 3); omega
    | ⟨1, _⟩ => show win0_11.index t (1 : Fin 3) * 1 + 1 * 0 = 0; omega
    | ⟨2, _⟩ => show win0_11.index t (2 : Fin 3) * 32 + 1 * o.val = o.val; omega
  rw [hemb, V_bmu]
  exact cast_bias _ _ (memberOf t) o

theorem blk_bsig (c : Dev nD) (t : Fin cfg0.N) : row11 (B13 m c t) = row (m ((c : Thread nD τ).loc main_arg13)) (memberOf t) := by
  funext o
  show V m c main_v5 (((cfg0.win 13).blk t).view.emb (ix3 (0 : Fin 1) (0 : Fin 1) o)) = (m ((c : Thread nD τ).loc main_arg13)) (ix2 (memberOf t) o)
  have hemb : ((cfg0.win 13).blk t).view.emb (ix3 (0 : Fin 1) (0 : Fin 1) o) = ix3 (memberOf t) (0 : Fin 1) o := by
    refine funext fun a => Fin.ext ?_
    have hb := idx_biases t
    match a with
    | ⟨0, _⟩ => show win0_13.index t (0 : Fin 3) * 1 + 1 * 0 = win0_16.index t (0 : Fin 3); omega
    | ⟨1, _⟩ => show win0_13.index t (1 : Fin 3) * 1 + 1 * 0 = 0; omega
    | ⟨2, _⟩ => show win0_13.index t (2 : Fin 3) * 32 + 1 * o.val = o.val; omega
  rw [hemb, V_bsig]
  exact cast_bias _ _ (memberOf t) o

theorem blk_hi (c : Dev nD) (t : Fin cfg0.N) : row (B14 m c t) 0 = vec (m ((c : Thread nD τ).loc main_arg14)) := by
  funext o
  show V m c main_v6 (((cfg0.win 14).blk t).view.emb (ix2 (0 : Fin 1) o)) = (m ((c : Thread nD τ).loc main_arg14)) (ix1 o)
  have hemb : ((cfg0.win 14).blk t).view.emb (ix2 (0 : Fin 1) o) = ix2 (0 : Fin 1) o := by
    refine funext fun a => Fin.ext ?_
    obtain ⟨-, -, -, -, -, -, -, -, -, -, l0, l1, l2, l3⟩ := idx_rows t
    match a with
    | ⟨0, _⟩ => show win0_14.index t (0 : Fin 2) * 1 + 1 * 0 = 0; omega
    | ⟨1, _⟩ => show win0_14.index t (1 : Fin 2) * 32 + 1 * o.val = o.val; omega
  rw [hemb, V_hi]
  exact shapeCast_a_1a_apply _ _ (0 : Fin 1) o

theorem blk_lo (c : Dev nD) (t : Fin cfg0.N) : row (B15 m c t) 0 = vec (m ((c : Thread nD τ).loc main_arg15)) := by
  funext o
  show V m c main_v7 (((cfg0.win 15).blk t).view.emb (ix2 (0 : Fin 1) o)) = (m ((c : Thread nD τ).loc main_arg15)) (ix1 o)
  have hemb : ((cfg0.win 15).blk t).view.emb (ix2 (0 : Fin 1) o) = ix2 (0 : Fin 1) o := by
    refine funext fun a => Fin.ext ?_
    obtain ⟨-, -, -, -, -, -, -, -, -, -, l0, l1, l2, l3⟩ := idx_rows t
    match a with
    | ⟨0, _⟩ => show win0_15.index t (0 : Fin 2) * 1 + 1 * 0 = 0; omega
    | ⟨1, _⟩ => show win0_15.index t (1 : Fin 2) * 32 + 1 * o.val = o.val; omega
  rw [hemb, V_lo]
  exact shapeCast_a_1a_apply _ _ (0 : Fin 1) o

/-! ## The specification's arrays of the arguments -/

/-- The mean array of the argument arrays. -/
def meanOf (c : Dev nD) : S7x32768x32.Idx → EReal :=
  muArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The deviation array of the argument arrays. -/
def devOf (c : Dev nD) : S7x32768x32.Idx → EReal :=
  sigArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15))

theorem hz2 : (![0, 0] : Fin 2 → Nat) = fun _ => 0 := funext fun a => by fin_cases a <;> rfl
theorem hz3 : (![0, 0, 0] : Fin 3 → Nat) = fun _ => 0 := funext fun a => by fin_cases a <;> rfl

/-- Where index (u, p, o) of point t's result block lies in the result array. -/
theorem emb_out (t : Fin cfg0.N) (u : Fin 1) (p : Fin 2048) (o : Fin 32) :
    ((cfg0.win 16).blk t).view.emb (ix3 u p o) = ix3 (memberOf t) (rowOf t p) o := by
  refine funext fun a => Fin.ext ?_
  obtain ⟨-, -, -, -, -, -, e6, -⟩ := idx_rows t
  match a with
  | ⟨0, _⟩ => show win0_16.index t (0 : Fin 3) * 1 + 1 * u.val = win0_16.index t (0 : Fin 3); omega
  | ⟨1, _⟩ => show win0_16.index t (1 : Fin 3) * 2048 + 1 * p.val = win0_16.index t (1 : Fin 3) * 2048 + p.val; omega
  | ⟨2, _⟩ => show win0_16.index t (2 : Fin 3) * 32 + 1 * o.val = o.val; omega

theorem emb_out' (t : Fin cfg0.N) (u : Fin 1) (p : Fin 2048) (o : Fin 32) :
    ((cfg0.win 17).blk t).view.emb (ix3 u p o) = ix3 (memberOf t) (rowOf t p) o := by
  refine funext fun a => Fin.ext ?_
  obtain ⟨-, -, -, -, -, -, -, e7, e8, e9, -⟩ := idx_rows t
  match a with
  | ⟨0, _⟩ => show win0_17.index t (0 : Fin 3) * 1 + 1 * u.val = win0_16.index t (0 : Fin 3); omega
  | ⟨1, _⟩ => show win0_17.index t (1 : Fin 3) * 2048 + 1 * p.val = win0_16.index t (1 : Fin 3) * 2048 + p.val; omega
  | ⟨2, _⟩ => show win0_17.index t (2 : Fin 3) * 32 + 1 * o.val = o.val; omega

/-- The last hidden row of row p of point t's block is that of batch row (rowOf t p) for member (memberOf t). -/
theorem hidden_blk (c : Dev nD) (t : Fin cfg0.N) (p : Fin 2048) :
    hiddenBlk (B0 m c t) (B1 m c t) (B2 m c t) (B3 m c t) (B4 m c t) (B5 m c t) (B6 m c t) (B7 m c t) (B8 m c t) (B9 m c t) p
      = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (memberOf t) (rowOf t p) := by
  unfold hiddenBlk Cert.EnsembleMlp.hidden
  rw [blk_state, blk_action, blk_W0, blk_b0, blk_W1, blk_b1, blk_W2, blk_b2, blk_W3, blk_b3]

/-- WHAT POINT t WRITES BACK to the mean is block t of the specification's mean array. -/
theorem flushed_mean (c : Dev nD) (t : Fin cfg0.N) :
    (dats m 0 c).flushed 16 t = ((cfg0.win 16).blk t).view.read (Elt Ideal) (meanOf m c) := by
  rw [ValueP.flushed16]
  unfold out0_16
  rw [View.canon_unit_zero hz3]
  simp only [View.ld_unit_zero (S := S2048x32) hz2, View.ld_unit_zero (S := S2048x8) hz2, View.ld_unit_zero (S := S1x40x256) hz3,
    View.ld_unit_zero (S := S1x1x256) hz3, View.ld_unit_zero (S := S1x256x256) hz3, View.ld_unit_zero (S := S1x256x128) hz3,
    View.ld_unit_zero (S := S1x1x128) hz3, View.ld_unit_zero (S := S1x128x32) hz3, View.ld_unit_zero (S := S1x1x32) hz3]
  funext j
  obtain ⟨u, p, o, rfl⟩ : ∃ (u : Fin 1) (p : Fin 2048) (o : Fin 32), j = ix3 u p o := ⟨j 0, j 1, j 2, eq_ix3 j⟩
  show k0_pay1 (B0 m c t) (k0_pay6 (k0_pay3 (B0 m c t) (B1 m c t) (B2 m c t) (B3 m c t) (B4 m c t) (B5 m c t) (B6 m c t)) (k0_pay4 (B7 m c t)) (B8 m c t) (B9 m c t) (B10 m c t) (B11 m c t)) (ix3 u p o)
      = meanOf m c (((cfg0.win 16).blk t).view.emb (ix3 u p o))
  rw [Rows.mu_apply, emb_out]
  show muBlk (B0 m c t) (B1 m c t) (B2 m c t) (B3 m c t) (B4 m c t) (B5 m c t) (B6 m c t) (B7 m c t) (B8 m c t) (B9 m c t) (B10 m c t) (B11 m c t) p o
      = muAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (memberOf t) (rowOf t p) o
  unfold muBlk muAt
  rw [hidden_blk, blk_Wmu, blk_bmu]
  exact congrArg (_ + ·) (congrFun (blk_state m c t p) o)

/-- WHAT POINT t WRITES BACK to the deviation is block t of the specification's deviation array. -/
theorem flushed_dev (c : Dev nD) (t : Fin cfg0.N) :
    (dats m 0 c).flushed 17 t = ((cfg0.win 17).blk t).view.read (Elt Ideal) (devOf m c) := by
  rw [ValueP.flushed17]
  unfold out0_17
  rw [View.canon_unit_zero hz3]
  simp only [View.ld_unit_zero (S := S2048x32) hz2, View.ld_unit_zero (S := S2048x8) hz2, View.ld_unit_zero (S := S1x40x256) hz3,
    View.ld_unit_zero (S := S1x1x256) hz3, View.ld_unit_zero (S := S1x256x256) hz3, View.ld_unit_zero (S := S1x256x128) hz3,
    View.ld_unit_zero (S := S1x1x128) hz3, View.ld_unit_zero (S := S1x128x32) hz3, View.ld_unit_zero (S := S1x1x32) hz3,
    View.ld_unit_zero (S := S1x32) hz2]
  funext j
  obtain ⟨u, p, o, rfl⟩ : ∃ (u : Fin 1) (p : Fin 2048) (o : Fin 32), j = ix3 u p o := ⟨j 0, j 1, j 2, eq_ix3 j⟩
  show k0_pay2 (k0_pay7 (k0_pay3 (B0 m c t) (B1 m c t) (B2 m c t) (B3 m c t) (B4 m c t) (B5 m c t) (B6 m c t)) (k0_pay4 (B7 m c t)) (B8 m c t) (B9 m c t) (B12 m c t) (B13 m c t)) (k0_pay8 (B14 m c t)) (k0_pay9 (B15 m c t)) (ix3 u p o)
      = devOf m c (((cfg0.win 17).blk t).view.emb (ix3 u p o))
  rw [Rows.sig_apply, emb_out']
  show sigBlk (B0 m c t) (B1 m c t) (B2 m c t) (B3 m c t) (B4 m c t) (B5 m c t) (B6 m c t) (B7 m c t) (B8 m c t) (B9 m c t) (B12 m c t) (B13 m c t) (B14 m c t) (B15 m c t) p o
      = sigAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (memberOf t) (rowOf t p) o
  unfold sigBlk sigAt
  rw [hidden_blk, blk_Wsig, blk_bsig, blk_hi, blk_lo]

/-! ## The blocks tile the results -/

theorem mem_blk16 (t : Fin cfg0.N) (i : S7x32768x32.Idx) :
    i ∈ ((cfg0.win 16).blk t).view.set ↔ ∀ a : Fin 3, win0_16.index t a * S1x2048x32.size a ≤ (i a).val ∧ (i a).val < win0_16.index t a * S1x2048x32.size a + S1x2048x32.size a := by
  show i ∈ ((View.whole main_v8_0).slice (win0_16.rect t)).set ↔ _
  rw [View.set_slice_whole, Rect.mem_set_unit]
  exact Iff.rfl

theorem mem_blk17 (t : Fin cfg0.N) (i : S7x32768x32.Idx) :
    i ∈ ((cfg0.win 17).blk t).view.set ↔ ∀ a : Fin 3, win0_17.index t a * S1x2048x32.size a ≤ (i a).val ∧ (i a).val < win0_17.index t a * S1x2048x32.size a + S1x2048x32.size a := by
  show i ∈ ((View.whole main_v8_1).slice (win0_17.rect t)).set ↔ _
  rw [View.set_slice_whole, Rect.mem_set_unit]
  exact Iff.rfl

/-- Every index of the mean array is in the block of the point that holds its member and its row block. -/
theorem cover16 (i : S7x32768x32.Idx) : ∃ t : Fin cfg0.N, (cfg0.win 16).flush t = true ∧ i ∈ ((cfg0.win 16).blk t).view.set := by
  have hi0 : (i 0).val < 7 := (i 0).isLt
  have hi1 : (i 1).val < 32768 := (i 1).isLt
  have hi2 : (i 2).val < 32 := (i 2).isLt
  obtain ⟨t, ht⟩ := idx_onto ⟨(i 0).val, hi0⟩ ⟨(i 1).val / 2048, by omega⟩
  have q0 : win0_16.index t (0 : Fin 3) = (i 0).val := congrFun ht 0
  have q1 : win0_16.index t (1 : Fin 3) = (i 1).val / 2048 := congrFun ht 1
  have q2 : win0_16.index t (2 : Fin 3) = 0 := congrFun ht 2
  refine ⟨t, flush0_16 t, ?_⟩
  rw [mem_blk16]
  intro a
  match a with
  | ⟨0, _⟩ => show win0_16.index t (0 : Fin 3) * 1 ≤ (i 0).val ∧ (i 0).val < win0_16.index t (0 : Fin 3) * 1 + 1; omega
  | ⟨1, _⟩ => show win0_16.index t (1 : Fin 3) * 2048 ≤ (i 1).val ∧ (i 1).val < win0_16.index t (1 : Fin 3) * 2048 + 2048; omega
  | ⟨2, _⟩ => show win0_16.index t (2 : Fin 3) * 32 ≤ (i 2).val ∧ (i 2).val < win0_16.index t (2 : Fin 3) * 32 + 32; omega

/-- The same for the deviation array, whose blocks move with the mean's. -/
theorem cover17 (i : S7x32768x32.Idx) : ∃ t : Fin cfg0.N, (cfg0.win 17).flush t = true ∧ i ∈ ((cfg0.win 17).blk t).view.set := by
  have hi0 : (i 0).val < 7 := (i 0).isLt
  have hi1 : (i 1).val < 32768 := (i 1).isLt
  have hi2 : (i 2).val < 32 := (i 2).isLt
  obtain ⟨t, ht⟩ := idx_onto ⟨(i 0).val, hi0⟩ ⟨(i 1).val / 2048, by omega⟩
  have q0 : win0_16.index t (0 : Fin 3) = (i 0).val := congrFun ht 0
  have q1 : win0_16.index t (1 : Fin 3) = (i 1).val / 2048 := congrFun ht 1
  obtain ⟨-, -, -, -, -, -, -, e7, e8, e9, -⟩ := idx_rows t
  refine ⟨t, flush0_17 t, ?_⟩
  rw [mem_blk17]
  intro a
  match a with
  | ⟨0, _⟩ => show win0_17.index t (0 : Fin 3) * 1 ≤ (i 0).val ∧ (i 0).val < win0_17.index t (0 : Fin 3) * 1 + 1; omega
  | ⟨1, _⟩ => show win0_17.index t (1 : Fin 3) * 2048 ≤ (i 1).val ∧ (i 1).val < win0_17.index t (1 : Fin 3) * 2048 + 2048; omega
  | ⟨2, _⟩ => show win0_17.index t (2 : Fin 3) * 32 ≤ (i 2).val ∧ (i 2).val < win0_17.index t (2 : Fin 3) * 32 + 32; omega

/-- After the run the mean array is the specification's. -/
theorem final_mean (c : Dev nD) : (dats m 0 c).arrAt 16 cfg0.N = meanOf m c :=
  (dats m 0 c).arrAt_eq_of_cover 16 (meanOf m c) (fun t _ => flushed_mean m c t) cover16

/-- After the run the deviation array is the specification's. -/
theorem final_dev (c : Dev nD) : (dats m 0 c).arrAt 17 cfg0.N = devOf m c :=
  (dats m 0 c).arrAt_eq_of_cover 17 (devOf m c) (fun t _ => flushed_dev m c t) cover17

/-- The kernel's run: it ends with both results at the specification's arrays of the arguments, the arguments unchanged. -/
theorem run : θ_run defs (onTc (τ := τ) (main (F := Ideal))) ⟨m, fun _ => 0, ρ⟩ fun r => ∀ c : Dev nD,
      r.2.mem ((c : Thread nD τ).loc main_v8_0) = meanOf m c
      ∧ r.2.mem ((c : Thread nD τ).loc main_v8_1) = devOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final_mean m c), (h c).2.1.trans (final_dev m c), (h c).2.2⟩)
    (ValueP.run_blocks m ρ)

end Cert.KernelIdeal.Blocks

end
-- ==== Proof.RefLayers.lean ====
/-
  The reference, read row by row.

  The reference carries all seven members at once: the row [state r, action r] is repeated for each member, each
  layer is a batched product over the member axis plus the member's bias, and the activation is spelt
  y · (1 / (1 + e^(-y))). Entry (e, r, o) of a batched product is the sum over k of (row (e, r) of the left operand) k
  times W e k o, so row (e, r) of each stage is the specification's row function of row (e, r) of the stage before.
-/
import proofs.«142831_j987842478670_1_alg».proof.Proof.RefRead
import proofs.«142831_j987842478670_1_alg».proof.Proof.Spec
import Idealize.ShloMosaic.Lib.IdealHost
import Idealize.ShloMosaic.Lib.ValueIdx
import Idealize.ShloMosaic.Lib.Pipeline.Value
import Idealize.ShloMosaic.PureOps.Ideal.Laws

noncomputable section

namespace Cert.ReferenceIdeal.Rows

open Cert.ReferenceIdeal Cert.ReferenceIdeal.Gen Cert.ReferenceIdeal.ReadP Idealize.ShloMosaic Idealize.ShloMosaic.ValueIdx Cert.EnsembleMlp

/-! ## The activation, spelt with a quotient -/

/-- y · (1 / (1 + e^(-y))), entry by entry; the two ones are a scalar constant broadcast to the whole shape. -/
abbrev ract (S : Shape) (h1 : S_.BroadcastsInDim S ![]) (Y : FVec Ideal S .f32) : FVec Ideal S .f32 :=
  mulf Y (Host.divf (broadcastInDim S ![] h1 (constant (F := Ideal) S_ .f32 0x3F800000#32))
    (addf (broadcastInDim S ![] h1 (constant (F := Ideal) S_ .f32 0x3F800000#32)) (Host.exp (Host.negf Y))))

/-- At an index it is the activation of the entry: the word 0x3F800000 is the real number one. -/
theorem ract_apply (S : Shape) (h1 : S_.BroadcastsInDim S ![]) (Y : FVec Ideal S .f32) (i : S.Idx) :
    ract S h1 Y i = swish (Y i) := by
  show Y i * Ideal.div (broadcastInDim S ![] h1 (constant (F := Ideal) S_ .f32 0x3F800000#32) i)
      (broadcastInDim S ![] h1 (constant (F := Ideal) S_ .f32 0x3F800000#32) i + Ideal.exp (-(Y i))) = _
  rw [broadcastInDim_scalar_apply]
  show Y i * Ideal.div (Ideal.ofBits .f32 0x3F800000#32) (Ideal.ofBits .f32 0x3F800000#32 + Ideal.exp (-(Y i))) = _
  rw [Ideal.ofBits_one_f32]
  rfl

/-! ### The batched product [7, 32768, 40] · [7, 40, 256] and the layer built on it -/

/-- Entry (e, r, o) of the batched product is the sum over the contracted axis, within member e. -/
theorem rdot40_apply {φ₁ φ₂ : FTy} (lhs : FVec Ideal S7x32768x40 φ₁) (rhs : FVec Ideal S7x40x256 φ₂) (e : Fin 7) (r : Fin 32768) (o : Fin 256) :
    Host.dotGeneral dot_S7x32768x40_S7x40x256_S7x32768x256_2_1_1_2_0_0 none lhs rhs (ix3 e r o) = ∑ k : Fin 40, lhs (ix3 e r k) * rhs (ix3 e k o) := by
  simp only [Host.dotGeneral]
  rw [Ideal.dotGeneral_apply, ← Equiv.sum_comp (contrEquiv1 dot_S7x32768x40_S7x40x256_S7x32768x256_2_1_1_2_0_0 40 rfl rfl).symm]
  refine Finset.sum_congr rfl fun k _ => ?_
  have hk := contrEquiv1_symm_val dot_S7x32768x40_S7x40x256_S7x32768x256_2_1_1_2_0_0 40 rfl rfl k
  have el : dot_S7x32768x40_S7x40x256_S7x32768x256_2_1_1_2_0_0.lhsIdx (ix3 e r o) ((contrEquiv1 dot_S7x32768x40_S7x40x256_S7x32768x256_2_1_1_2_0_0 40 rfl rfl).symm k) = ix3 e r k := funext fun a => Fin.ext (by
    match a with
    | ⟨0, _⟩ => exact lhs_main_v2_0 _ _
    | ⟨1, _⟩ => exact lhs_main_v2_1 _ _
    | ⟨2, _⟩ => exact (lhs_main_v2_2 _ _).trans hk)
  have er : dot_S7x32768x40_S7x40x256_S7x32768x256_2_1_1_2_0_0.rhsIdx (ix3 e r o) ((contrEquiv1 dot_S7x32768x40_S7x40x256_S7x32768x256_2_1_1_2_0_0 40 rfl rfl).symm k) = ix3 e k o := funext fun a => Fin.ext (by
    match a with
    | ⟨0, _⟩ => exact rhs_main_v2_0 _ _
    | ⟨1, _⟩ => exact (rhs_main_v2_1 _ _).trans hk
    | ⟨2, _⟩ => exact rhs_main_v2_2 _ _)
  rw [el, er]

/-- The layer before its activation: the batched product plus each member's bias row on every batch row. -/
abbrev rpre40 (H : FVec Ideal S7x32768x40 .f32) (W : FVec Ideal S7x40x256 .f32) (b : FVec Ideal S7x256 .f32) : FVec Ideal S7x32768x256 .f32 :=
  addf (Host.dotGeneral dot_S7x32768x40_S7x40x256_S7x32768x256_2_1_1_2_0_0 none H W) (broadcastInDim S7x32768x256 ![0, 1, 2] bcast_S7x1x256_S7x32768x256_0_1_2 (broadcastInDim S7x1x256 ![0, 2] bcast_S7x256_S7x1x256_0_2 b))

/-- Row (e, r) of it is the dense map of row (e, r) of H with member e's matrix and bias. -/
theorem rpre40_apply (H : FVec Ideal S7x32768x40 .f32) (W : FVec Ideal S7x40x256 .f32) (b : FVec Ideal S7x256 .f32) (e : Fin 7) (r : Fin 32768)
    (f : Fin 40 → EReal) (hf : (fun k => H (ix3 e r k)) = f) (o : Fin 256) :
    rpre40 H W b (ix3 e r o) = dense f (slab W e) (row b e) o := by
  subst hf
  show Host.dotGeneral dot_S7x32768x40_S7x40x256_S7x32768x256_2_1_1_2_0_0 none H W (ix3 e r o)
      + broadcastInDim S7x32768x256 ![0, 1, 2] bcast_S7x1x256_S7x32768x256_0_1_2 (broadcastInDim S7x1x256 ![0, 2] bcast_S7x256_S7x1x256_0_2 b) (ix3 e r o) = _
  rw [rdot40_apply]
  refine congrArg ((∑ k : Fin 40, H (ix3 e r k) * W (ix3 e k o)) + ·) ?_
  exact (broadcastInDim_apply _ bcast_S7x1x256_S7x32768x256_0_1_2 _ (ix3 e r o) (ix3 e (0 : Fin 1) o) (fun a => match a with
      | ⟨0, _⟩ => by show e.val = if (7 : Nat) = 1 then 0 else e.val; rw [if_neg (by decide)]
      | ⟨1, _⟩ => by show 0 = if (1 : Nat) = 1 then 0 else r.val; rw [if_pos rfl]
      | ⟨2, _⟩ => by show o.val = if (256 : Nat) = 1 then 0 else o.val; rw [if_neg (by decide)])).trans
    (broadcastInDim_apply _ bcast_S7x256_S7x1x256_0_2 b (ix3 e (0 : Fin 1) o) (ix2 e o) (fun a => match a with
      | ⟨0, _⟩ => by show e.val = if (7 : Nat) = 1 then 0 else e.val; rw [if_neg (by decide)]
      | ⟨1, _⟩ => by show o.val = if (256 : Nat) = 1 then 0 else o.val; rw [if_neg (by decide)]))

/-- Row (e, r) of the layer with its activation is the hidden layer of row (e, r) of H. -/
theorem rlayer40_row (H : FVec Ideal S7x32768x40 .f32) (W : FVec Ideal S7x40x256 .f32) (b : FVec Ideal S7x256 .f32) (e : Fin 7) (r : Fin 32768)
    (f : Fin 40 → EReal) (hf : (fun k => H (ix3 e r k)) = f) :
    (fun o => ract S7x32768x256 bcast_S_S7x32768x256 (rpre40 H W b) (ix3 e r o)) = layer f (slab W e) (row b e) :=
  funext fun o => (ract_apply _ _ _ _).trans (congrArg swish (rpre40_apply H W b e r f hf o))

/-! ### The batched product [7, 32768, 256] · [7, 256, 256] and the layer built on it -/

/-- Entry (e, r, o) of the batched product is the sum over the contracted axis, within member e. -/
theorem rdot256_apply {φ₁ φ₂ : FTy} (lhs : FVec Ideal S7x32768x256 φ₁) (rhs : FVec Ideal S7x256x256 φ₂) (e : Fin 7) (r : Fin 32768) (o : Fin 256) :
    Host.dotGeneral dot_S7x32768x256_S7x256x256_S7x32768x256_2_1_1_2_0_0 none lhs rhs (ix3 e r o) = ∑ k : Fin 256, lhs (ix3 e r k) * rhs (ix3 e k o) := by
  simp only [Host.dotGeneral]
  rw [Ideal.dotGeneral_apply, ← Equiv.sum_comp (contrEquiv1 dot_S7x32768x256_S7x256x256_S7x32768x256_2_1_1_2_0_0 256 rfl rfl).symm]
  refine Finset.sum_congr rfl fun k _ => ?_
  have hk := contrEquiv1_symm_val dot_S7x32768x256_S7x256x256_S7x32768x256_2_1_1_2_0_0 256 rfl rfl k
  have el : dot_S7x32768x256_S7x256x256_S7x32768x256_2_1_1_2_0_0.lhsIdx (ix3 e r o) ((contrEquiv1 dot_S7x32768x256_S7x256x256_S7x32768x256_2_1_1_2_0_0 256 rfl rfl).symm k) = ix3 e r k := funext fun a => Fin.ext (by
    match a with
    | ⟨0, _⟩ => exact lhs_main_v13_0 _ _
    | ⟨1, _⟩ => exact lhs_main_v13_1 _ _
    | ⟨2, _⟩ => exact (lhs_main_v13_2 _ _).trans hk)
  have er : dot_S7x32768x256_S7x256x256_S7x32768x256_2_1_1_2_0_0.rhsIdx (ix3 e r o) ((contrEquiv1 dot_S7x32768x256_S7x256x256_S7x32768x256_2_1_1_2_0_0 256 rfl rfl).symm k) = ix3 e k o := funext fun a => Fin.ext (by
    match a with
    | ⟨0, _⟩ => exact rhs_main_v13_0 _ _
    | ⟨1, _⟩ => exact (rhs_main_v13_1 _ _).trans hk
    | ⟨2, _⟩ => exact rhs_main_v13_2 _ _)
  rw [el, er]

/-- The layer before its activation: the batched product plus each member's bias row on every batch row. -/
abbrev rpre256 (H : FVec Ideal S7x32768x256 .f32) (W : FVec Ideal S7x256x256 .f32) (b : FVec Ideal S7x256 .f32) : FVec Ideal S7x32768x256 .f32 :=
  addf (Host.dotGeneral dot_S7x32768x256_S7x256x256_S7x32768x256_2_1_1_2_0_0 none H W) (broadcastInDim S7x32768x256 ![0, 1, 2] bcast_S7x1x256_S7x32768x256_0_1_2 (broadcastInDim S7x1x256 ![0, 2] bcast_S7x256_S7x1x256_0_2 b))

/-- Row (e, r) of it is the dense map of row (e, r) of H with member e's matrix and bias. -/
theorem rpre256_apply (H : FVec Ideal S7x32768x256 .f32) (W : FVec Ideal S7x256x256 .f32) (b : FVec Ideal S7x256 .f32) (e : Fin 7) (r : Fin 32768)
    (f : Fin 256 → EReal) (hf : (fun k => H (ix3 e r k)) = f) (o : Fin 256) :
    rpre256 H W b (ix3 e r o) = dense f (slab W e) (row b e) o := by
  subst hf
  show Host.dotGeneral dot_S7x32768x256_S7x256x256_S7x32768x256_2_1_1_2_0_0 none H W (ix3 e r o)
      + broadcastInDim S7x32768x256 ![0, 1, 2] bcast_S7x1x256_S7x32768x256_0_1_2 (broadcastInDim S7x1x256 ![0, 2] bcast_S7x256_S7x1x256_0_2 b) (ix3 e r o) = _
  rw [rdot256_apply]
  refine congrArg ((∑ k : Fin 256, H (ix3 e r k) * W (ix3 e k o)) + ·) ?_
  exact (broadcastInDim_apply _ bcast_S7x1x256_S7x32768x256_0_1_2 _ (ix3 e r o) (ix3 e (0 : Fin 1) o) (fun a => match a with
      | ⟨0, _⟩ => by show e.val = if (7 : Nat) = 1 then 0 else e.val; rw [if_neg (by decide)]
      | ⟨1, _⟩ => by show 0 = if (1 : Nat) = 1 then 0 else r.val; rw [if_pos rfl]
      | ⟨2, _⟩ => by show o.val = if (256 : Nat) = 1 then 0 else o.val; rw [if_neg (by decide)])).trans
    (broadcastInDim_apply _ bcast_S7x256_S7x1x256_0_2 b (ix3 e (0 : Fin 1) o) (ix2 e o) (fun a => match a with
      | ⟨0, _⟩ => by show e.val = if (7 : Nat) = 1 then 0 else e.val; rw [if_neg (by decide)]
      | ⟨1, _⟩ => by show o.val = if (256 : Nat) = 1 then 0 else o.val; rw [if_neg (by decide)]))

/-- Row (e, r) of the layer with its activation is the hidden layer of row (e, r) of H. -/
theorem rlayer256_row (H : FVec Ideal S7x32768x256 .f32) (W : FVec Ideal S7x256x256 .f32) (b : FVec Ideal S7x256 .f32) (e : Fin 7) (r : Fin 32768)
    (f : Fin 256 → EReal) (hf : (fun k => H (ix3 e r k)) = f) :
    (fun o => ract S7x32768x256 bcast_S_S7x32768x256 (rpre256 H W b) (ix3 e r o)) = layer f (slab W e) (row b e) :=
  funext fun o => (ract_apply _ _ _ _).trans (congrArg swish (rpre256_apply H W b e r f hf o))

/-! ### The batched product [7, 32768, 256] · [7, 256, 128] and the layer built on it -/

/-- Entry (e, r, o) of the batched product is the sum over the contracted axis, within member e. -/
theorem rdot128_apply {φ₁ φ₂ : FTy} (lhs : FVec Ideal S7x32768x256 φ₁) (rhs : FVec Ideal S7x256x128 φ₂) (e : Fin 7) (r : Fin 32768) (o : Fin 128) :
    Host.dotGeneral dot_S7x32768x256_S7x256x128_S7x32768x128_2_1_1_2_0_0 none lhs rhs (ix3 e r o) = ∑ k : Fin 256, lhs (ix3 e r k) * rhs (ix3 e k o) := by
  simp only [Host.dotGeneral]
  rw [Ideal.dotGeneral_apply, ← Equiv.sum_comp (contrEquiv1 dot_S7x32768x256_S7x256x128_S7x32768x128_2_1_1_2_0_0 256 rfl rfl).symm]
  refine Finset.sum_congr rfl fun k _ => ?_
  have hk := contrEquiv1_symm_val dot_S7x32768x256_S7x256x128_S7x32768x128_2_1_1_2_0_0 256 rfl rfl k
  have el : dot_S7x32768x256_S7x256x128_S7x32768x128_2_1_1_2_0_0.lhsIdx (ix3 e r o) ((contrEquiv1 dot_S7x32768x256_S7x256x128_S7x32768x128_2_1_1_2_0_0 256 rfl rfl).symm k) = ix3 e r k := funext fun a => Fin.ext (by
    match a with
    | ⟨0, _⟩ => exact lhs_main_v35_0 _ _
    | ⟨1, _⟩ => exact lhs_main_v35_1 _ _
    | ⟨2, _⟩ => exact (lhs_main_v35_2 _ _).trans hk)
  have er : dot_S7x32768x256_S7x256x128_S7x32768x128_2_1_1_2_0_0.rhsIdx (ix3 e r o) ((contrEquiv1 dot_S7x32768x256_S7x256x128_S7x32768x128_2_1_1_2_0_0 256 rfl rfl).symm k) = ix3 e k o := funext fun a => Fin.ext (by
    match a with
    | ⟨0, _⟩ => exact rhs_main_v35_0 _ _
    | ⟨1, _⟩ => exact (rhs_main_v35_1 _ _).trans hk
    | ⟨2, _⟩ => exact rhs_main_v35_2 _ _)
  rw [el, er]

/-- The layer before its activation: the batched product plus each member's bias row on every batch row. -/
abbrev rpre128 (H : FVec Ideal S7x32768x256 .f32) (W : FVec Ideal S7x256x128 .f32) (b : FVec Ideal S7x128 .f32) : FVec Ideal S7x32768x128 .f32 :=
  addf (Host.dotGeneral dot_S7x32768x256_S7x256x128_S7x32768x128_2_1_1_2_0_0 none H W) (broadcastInDim S7x32768x128 ![0, 1, 2] bcast_S7x1x128_S7x32768x128_0_1_2 (broadcastInDim S7x1x128 ![0, 2] bcast_S7x128_S7x1x128_0_2 b))

/-- Row (e, r) of it is the dense map of row (e, r) of H with member e's matrix and bias. -/
theorem rpre128_apply (H : FVec Ideal S7x32768x256 .f32) (W : FVec Ideal S7x256x128 .f32) (b : FVec Ideal S7x128 .f32) (e : Fin 7) (r : Fin 32768)
    (f : Fin 256 → EReal) (hf : (fun k => H (ix3 e r k)) = f) (o : Fin 128) :
    rpre128 H W b (ix3 e r o) = dense f (slab W e) (row b e) o := by
  subst hf
  show Host.dotGeneral dot_S7x32768x256_S7x256x128_S7x32768x128_2_1_1_2_0_0 none H W (ix3 e r o)
      + broadcastInDim S7x32768x128 ![0, 1, 2] bcast_S7x1x128_S7x32768x128_0_1_2 (broadcastInDim S7x1x128 ![0, 2] bcast_S7x128_S7x1x128_0_2 b) (ix3 e r o) = _
  rw [rdot128_apply]
  refine congrArg ((∑ k : Fin 256, H (ix3 e r k) * W (ix3 e k o)) + ·) ?_
  exact (broadcastInDim_apply _ bcast_S7x1x128_S7x32768x128_0_1_2 _ (ix3 e r o) (ix3 e (0 : Fin 1) o) (fun a => match a with
      | ⟨0, _⟩ => by show e.val = if (7 : Nat) = 1 then 0 else e.val; rw [if_neg (by decide)]
      | ⟨1, _⟩ => by show 0 = if (1 : Nat) = 1 then 0 else r.val; rw [if_pos rfl]
      | ⟨2, _⟩ => by show o.val = if (128 : Nat) = 1 then 0 else o.val; rw [if_neg (by decide)])).trans
    (broadcastInDim_apply _ bcast_S7x128_S7x1x128_0_2 b (ix3 e (0 : Fin 1) o) (ix2 e o) (fun a => match a with
      | ⟨0, _⟩ => by show e.val = if (7 : Nat) = 1 then 0 else e.val; rw [if_neg (by decide)]
      | ⟨1, _⟩ => by show o.val = if (128 : Nat) = 1 then 0 else o.val; rw [if_neg (by decide)]))

/-- Row (e, r) of the layer with its activation is the hidden layer of row (e, r) of H. -/
theorem rlayer128_row (H : FVec Ideal S7x32768x256 .f32) (W : FVec Ideal S7x256x128 .f32) (b : FVec Ideal S7x128 .f32) (e : Fin 7) (r : Fin 32768)
    (f : Fin 256 → EReal) (hf : (fun k => H (ix3 e r k)) = f) :
    (fun o => ract S7x32768x128 bcast_S_S7x32768x128 (rpre128 H W b) (ix3 e r o)) = layer f (slab W e) (row b e) :=
  funext fun o => (ract_apply _ _ _ _).trans (congrArg swish (rpre128_apply H W b e r f hf o))

/-! ### The batched product [7, 32768, 128] · [7, 128, 32] and the layer built on it -/

/-- Entry (e, r, o) of the batched product is the sum over the contracted axis, within member e. -/
theorem rdot32_apply {φ₁ φ₂ : FTy} (lhs : FVec Ideal S7x32768x128 φ₁) (rhs : FVec Ideal S7x128x32 φ₂) (e : Fin 7) (r : Fin 32768) (o : Fin 32) :
    Host.dotGeneral dot_S7x32768x128_S7x128x32_S7x32768x32_2_1_1_2_0_0 none lhs rhs (ix3 e r o) = ∑ k : Fin 128, lhs (ix3 e r k) * rhs (ix3 e k o) := by
  simp only [Host.dotGeneral]
  rw [Ideal.dotGeneral_apply, ← Equiv.sum_comp (contrEquiv1 dot_S7x32768x128_S7x128x32_S7x32768x32_2_1_1_2_0_0 128 rfl rfl).symm]
  refine Finset.sum_congr rfl fun k _ => ?_
  have hk := contrEquiv1_symm_val dot_S7x32768x128_S7x128x32_S7x32768x32_2_1_1_2_0_0 128 rfl rfl k
  have el : dot_S7x32768x128_S7x128x32_S7x32768x32_2_1_1_2_0_0.lhsIdx (ix3 e r o) ((contrEquiv1 dot_S7x32768x128_S7x128x32_S7x32768x32_2_1_1_2_0_0 128 rfl rfl).symm k) = ix3 e r k := funext fun a => Fin.ext (by
    match a with
    | ⟨0, _⟩ => exact lhs_main_v46_0 _ _
    | ⟨1, _⟩ => exact lhs_main_v46_1 _ _
    | ⟨2, _⟩ => exact (lhs_main_v46_2 _ _).trans hk)
  have er : dot_S7x32768x128_S7x128x32_S7x32768x32_2_1_1_2_0_0.rhsIdx (ix3 e r o) ((contrEquiv1 dot_S7x32768x128_S7x128x32_S7x32768x32_2_1_1_2_0_0 128 rfl rfl).symm k) = ix3 e k o := funext fun a => Fin.ext (by
    match a with
    | ⟨0, _⟩ => exact rhs_main_v46_0 _ _
    | ⟨1, _⟩ => exact (rhs_main_v46_1 _ _).trans hk
    | ⟨2, _⟩ => exact rhs_main_v46_2 _ _)
  rw [el, er]

/-- The layer before its activation: the batched product plus each member's bias row on every batch row. -/
abbrev rpre32 (H : FVec Ideal S7x32768x128 .f32) (W : FVec Ideal S7x128x32 .f32) (b : FVec Ideal S7x32 .f32) : FVec Ideal S7x32768x32 .f32 :=
  addf (Host.dotGeneral dot_S7x32768x128_S7x128x32_S7x32768x32_2_1_1_2_0_0 none H W) (broadcastInDim S7x32768x32 ![0, 1, 2] bcast_S7x1x32_S7x32768x32_0_1_2 (broadcastInDim S7x1x32 ![0, 2] bcast_S7x32_S7x1x32_0_2 b))

/-- Row (e, r) of it is the dense map of row (e, r) of H with member e's matrix and bias. -/
theorem rpre32_apply (H : FVec Ideal S7x32768x128 .f32) (W : FVec Ideal S7x128x32 .f32) (b : FVec Ideal S7x32 .f32) (e : Fin 7) (r : Fin 32768)
    (f : Fin 128 → EReal) (hf : (fun k => H (ix3 e r k)) = f) (o : Fin 32) :
    rpre32 H W b (ix3 e r o) = dense f (slab W e) (row b e) o := by
  subst hf
  show Host.dotGeneral dot_S7x32768x128_S7x128x32_S7x32768x32_2_1_1_2_0_0 none H W (ix3 e r o)
      + broadcastInDim S7x32768x32 ![0, 1, 2] bcast_S7x1x32_S7x32768x32_0_1_2 (broadcastInDim S7x1x32 ![0, 2] bcast_S7x32_S7x1x32_0_2 b) (ix3 e r o) = _
  rw [rdot32_apply]
  refine congrArg ((∑ k : Fin 128, H (ix3 e r k) * W (ix3 e k o)) + ·) ?_
  exact (broadcastInDim_apply _ bcast_S7x1x32_S7x32768x32_0_1_2 _ (ix3 e r o) (ix3 e (0 : Fin 1) o) (fun a => match a with
      | ⟨0, _⟩ => by show e.val = if (7 : Nat) = 1 then 0 else e.val; rw [if_neg (by decide)]
      | ⟨1, _⟩ => by show 0 = if (1 : Nat) = 1 then 0 else r.val; rw [if_pos rfl]
      | ⟨2, _⟩ => by show o.val = if (32 : Nat) = 1 then 0 else o.val; rw [if_neg (by decide)])).trans
    (broadcastInDim_apply _ bcast_S7x32_S7x1x32_0_2 b (ix3 e (0 : Fin 1) o) (ix2 e o) (fun a => match a with
      | ⟨0, _⟩ => by show e.val = if (7 : Nat) = 1 then 0 else e.val; rw [if_neg (by decide)]
      | ⟨1, _⟩ => by show o.val = if (32 : Nat) = 1 then 0 else o.val; rw [if_neg (by decide)]))

/-! ## The row [state, action], repeated for every member -/

theorem x_row (x0 : FVec Ideal S32768x32 .f32) (x1 : FVec Ideal S32768x8 .f32) (e : Fin 7) (r : Fin 32768) :
    (fun k => val_main_v1 (F := Ideal) x0 x1 (ix3 e r k)) = catRow (row x0 r) (row x1 r) := by
  funext k
  rw [val_main_v1_apply]
  show concatenate S32768x40 1 [⟨S32768x32, x0⟩, ⟨S32768x8, x1⟩] concatenates_S32768x32_S32768x8_S32768x40_d1 (idx_main_v1 (ix3 e r k))
      = catRow (row x0 r) (row x1 r) k
  unfold catRow
  by_cases h : k.val < 32
  · rw [dif_pos h]
    exact concatenate_pair_apply_left 1 x0 x1 _ (idx_main_v1 (ix3 e r k)) rfl (ix2 r ⟨k.val, h⟩) (fun b => by
      match b with
      | ⟨0, _⟩ => rfl
      | ⟨1, _⟩ => rfl)
  · rw [dif_neg h]
    have hk := k.isLt
    exact concatenate_pair_apply_right 1 x0 x1 _ (idx_main_v1 (ix3 e r k)) rfl rfl (ix2 r ⟨k.val - 32, by omega⟩) (fun b hb => by
      match b with
      | ⟨0, _⟩ => rfl
      | ⟨1, _⟩ => exact absurd rfl hb) (by show (k.val - 32) + 32 = k.val; omega)

/-! ## The stages -/

section
variable (x0 : FVec Ideal S32768x32 .f32) (x1 : FVec Ideal S32768x8 .f32) (x2 : FVec Ideal S7x40x256 .f32) (x3 : FVec Ideal S7x256 .f32)
  (x4 : FVec Ideal S7x256x256 .f32) (x5 : FVec Ideal S7x256 .f32) (x6 : FVec Ideal S7x256x256 .f32) (x7 : FVec Ideal S7x256 .f32)
  (x8 : FVec Ideal S7x256x128 .f32) (x9 : FVec Ideal S7x128 .f32)

/-- The reference's last hidden stage is the four layers applied one after the other. -/
theorem v45_eq : val_main_v45 (F := Ideal) x0 x1 x2 x3 x4 x5 x6 x7 x8 x9
    = ract S7x32768x128 bcast_S_S7x32768x128 (rpre128 (ract S7x32768x256 bcast_S_S7x32768x256 (rpre256
        (ract S7x32768x256 bcast_S_S7x32768x256 (rpre256 (ract S7x32768x256 bcast_S_S7x32768x256
          (rpre40 (val_main_v1 (F := Ideal) x0 x1) x2 x3)) x4 x5)) x6 x7)) x8 x9) := rfl

/-- Row (e, r) of the last hidden stage is the specification's hidden row. -/
theorem hidden_row (e : Fin 7) (r : Fin 32768) :
    (fun k => val_main_v45 (F := Ideal) x0 x1 x2 x3 x4 x5 x6 x7 x8 x9 (ix3 e r k)) = hidden x0 x1 x2 x3 x4 x5 x6 x7 x8 x9 e r := by
  rw [v45_eq]
  exact rlayer128_row _ x8 x9 e r _ (rlayer256_row _ x6 x7 e r _ (rlayer256_row _ x4 x5 e r _ (rlayer40_row _ x2 x3 e r _ (x_row x0 x1 e r))))

/-- The reference's mean at (e, r, o). -/
theorem mu_apply (x10 : FVec Ideal S7x128x32 .f32) (x11 : FVec Ideal S7x32 .f32) (e : Fin 7) (r : Fin 32768) (o : Fin 32) :
    val_main_v71 (F := Ideal) x0 x1 x2 x3 x4 x5 x6 x7 x8 x9 x10 x11 (ix3 e r o) = muAt x0 x1 x2 x3 x4 x5 x6 x7 x8 x9 x10 x11 e r o := by
  show rpre32 (val_main_v45 (F := Ideal) x0 x1 x2 x3 x4 x5 x6 x7 x8 x9) x10 x11 (ix3 e r o) + val_main_v70 (F := Ideal) x0 (ix3 e r o) = _
  rw [rpre32_apply _ x10 x11 e r _ (hidden_row x0 x1 x2 x3 x4 x5 x6 x7 x8 x9 e r) o, val_main_v70_apply, val_main_v69_apply]
  have hi : idx_main_v69 (idx_main_v70 (ix3 e r o)) = ix2 r o := funext fun a => by
    match a with
    | ⟨0, _⟩ => rfl
    | ⟨1, _⟩ => rfl
  rw [hi]
  rfl

/-- The reference's deviation at (e, r, o): below the log-deviation head everything acts entry by entry, the bounds are
    vectors broadcast over members and rows, and the two guarded softplus spellings are softplus. -/
theorem sig_apply (x12 : FVec Ideal S7x128x32 .f32) (x13 : FVec Ideal S7x32 .f32) (x14 x15 : FVec Ideal S32 .f32)
    (e : Fin 7) (r : Fin 32768) (o : Fin 32) :
    val_main_v68 (F := Ideal) x0 x1 x2 x3 x4 x5 x6 x7 x8 x9 x12 x13 x14 x15 (ix3 e r o) = sigAt x0 x1 x2 x3 x4 x5 x6 x7 x8 x9 x12 x13 x14 x15 e r o := by
  have h53 : val_main_v53 (F := Ideal) x0 x1 x2 x3 x4 x5 x6 x7 x8 x9 x12 x13 (ix3 e r o) = dense (hidden x0 x1 x2 x3 x4 x5 x6 x7 x8 x9 e r) (slab x12 e) (row x13 e) o :=
    rpre32_apply (val_main_v45 (F := Ideal) x0 x1 x2 x3 x4 x5 x6 x7 x8 x9) x12 x13 e r _ (hidden_row x0 x1 x2 x3 x4 x5 x6 x7 x8 x9 e r) o
  have i54 : idx_main_v54 (idx_main_v55 (ix3 e r o)) = ix1 o := funext fun a => by
    match a with
    | ⟨0, _⟩ => rfl
  have i58 : idx_main_v58 (idx_main_v59 (ix3 e r o)) = ix1 o := funext fun a => by
    match a with
    | ⟨0, _⟩ => rfl
  have i61 : idx_main_v61 (idx_main_v62 (ix3 e r o)) = ix1 o := funext fun a => by
    match a with
    | ⟨0, _⟩ => rfl
  have i65 : idx_main_v65 (idx_main_v66 (ix3 e r o)) = ix1 o := funext fun a => by
    match a with
    | ⟨0, _⟩ => rfl
  simp only [val_main_v68_apply, val_main_v67_apply, val_main_v66_apply, val_main_v65_apply, val_main_v64_apply,
    val_main_call1_v0_apply, val_main_call1_v1_apply, val_main_call1_v2_apply, val_main_call1_v3_apply, val_main_call1_v4_apply, val_main_call1_v5_apply, val_main_call1_v6_apply, val_main_call1_v7_apply, val_main_call1_v8_apply, val_main_call1_v9_apply, val_main_call1_v10_apply, val_main_call1_v11_apply, val_main_call1_cst_apply,
    val_main_v63_apply, val_main_v62_apply, val_main_v61_apply, val_main_v60_apply, val_main_v59_apply, val_main_v58_apply, val_main_v57_apply,
    val_main_call0_v0_apply, val_main_call0_v1_apply, val_main_call0_v2_apply, val_main_call0_v3_apply, val_main_call0_v4_apply, val_main_call0_v5_apply, val_main_call0_v6_apply, val_main_call0_v7_apply, val_main_call0_v8_apply, val_main_call0_v9_apply, val_main_call0_v10_apply, val_main_call0_v11_apply, val_main_call0_cst_apply,
    val_main_v56_apply, val_main_v55_apply, val_main_v54_apply]
  simp only [Ideal.addf_def, Ideal.subf_def, Ideal.maximumf_def, Ideal.cmpf_def, Ideal.hostAbsf_def, Ideal.absf_def, Ideal.hostNegf_def, Ideal.negf_def,
    Ideal.hostUnary_exp_def, Ideal.hostUnary_log1p_def, Ideal.ofBits_def, Ideal.ofBits_zero_f32]
  simp only [i54, i58, i61, i65, softplus_neg]
  rw [h53]
  rfl

/-- The reference's mean array is the specification's. -/
theorem mean_eq (x10 : FVec Ideal S7x128x32 .f32) (x11 : FVec Ideal S7x32 .f32) :
    val_main_v71 (F := Ideal) x0 x1 x2 x3 x4 x5 x6 x7 x8 x9 x10 x11 = muArr x0 x1 x2 x3 x4 x5 x6 x7 x8 x9 x10 x11 := by
  funext i
  obtain ⟨e, r, o, rfl⟩ : ∃ (e : Fin 7) (r : Fin 32768) (o : Fin 32), i = ix3 e r o := ⟨i 0, i 1, i 2, eq_ix3 i⟩
  exact mu_apply x0 x1 x2 x3 x4 x5 x6 x7 x8 x9 x10 x11 e r o

/-- The reference's deviation array is the specification's. -/
theorem dev_eq (x12 : FVec Ideal S7x128x32 .f32) (x13 : FVec Ideal S7x32 .f32) (x14 x15 : FVec Ideal S32 .f32) :
    val_main_v68 (F := Ideal) x0 x1 x2 x3 x4 x5 x6 x7 x8 x9 x12 x13 x14 x15 = sigArr x0 x1 x2 x3 x4 x5 x6 x7 x8 x9 x12 x13 x14 x15 := by
  funext i
  obtain ⟨e, r, o, rfl⟩ : ∃ (e : Fin 7) (r : Fin 32768) (o : Fin 32), i = ix3 e r o := ⟨i 0, i 1, i 2, eq_ix3 i⟩
  exact sig_apply x0 x1 x2 x3 x4 x5 x6 x7 x8 x9 x12 x13 x14 x15 e r o

end

end Cert.ReferenceIdeal.Rows

end
-- ==== Proof.lean ====
/-
  The certificate of an ensemble of seven small networks evaluated on a batch of 32768 rows: the kernel, which walks
  a 16 × 7 grid (2048 rows of the batch, one member) and computes each layer as a product into a zero accumulator plus
  a bias row, against the reference, which computes all members at once with batched products.

  On the extended reals both compute the same function (Proof/Spec.lean): four layers y ↦ y · σ(y) of a dense map, a
  linear head plus the state (the mean), and a linear head squeezed between two bounds by two softplus steps and
  exponentiated (the deviation). The two sides agree operation by operation: the kernel's one-operation sigmoid is by
  definition the quotient 1 / (1 + e^(-y)) the reference spells out, the two spellings of softplus differ by
  0 - |d| against -|d| and by a test d ≠ d that is false on the extended reals, a product into a zero accumulator is
  the batched product restricted to one member, and the changes of float format are the identity. No step uses a law
  that fails at an infinity, so the precondition (finite inputs) is never opened.

  Proof/KernelRows.lean reads one grid point row by row; Proof/KernelBlocks.lean assembles the two result arrays from
  the points' blocks; Proof/RefLayers.lean reads the reference row by row. The kernel's frames and the launch side of
  its value, and the reference's run, are generated modules.
-/
import proofs.«142831_j987842478670_1_alg».proof.Defs
import proofs.«142831_j987842478670_1_alg».proof.Proof.Gen.Kernel
import proofs.«142831_j987842478670_1_alg».proof.Proof.Gen.Kernel.Skeleton
import proofs.«142831_j987842478670_1_alg».proof.Proof.Gen.Kernel.Launch
import proofs.«142831_j987842478670_1_alg».proof.Proof.Gen.Kernel.Points
import proofs.«142831_j987842478670_1_alg».proof.Proof.Gen.Kernel.Frame
import proofs.«142831_j987842478670_1_alg».proof.Proof.Gen.KernelIdeal
import proofs.«142831_j987842478670_1_alg».proof.Proof.Gen.KernelIdeal.Skeleton
import proofs.«142831_j987842478670_1_alg».proof.Proof.Gen.KernelIdeal.Launch
import proofs.«142831_j987842478670_1_alg».proof.Proof.Gen.KernelIdeal.Points
import proofs.«142831_j987842478670_1_alg».proof.Proof.Gen.KernelIdeal.Frame
import proofs.«142831_j987842478670_1_alg».proof.Proof.Gen.ReferenceIdeal
import proofs.«142831_j987842478670_1_alg».proof.Proof.Gen.Pre_finite_inputs
import proofs.«142831_j987842478670_1_alg».proof.Proof.KernelBlocks
import proofs.«142831_j987842478670_1_alg».proof.Proof.RefLayers
import Idealize.ShloMosaic.Adequacy
import Idealize.ShloMosaic.Init

noncomputable section

namespace Cert.Proof

open Idealize.ShloMosaic Idealize.ShloMosaic.TcCoe Idealize.SL.Sem

/-- The word-level kernel runs to its end, faults nowhere and leaves its arguments as they were. -/
theorem frame_kernel : Cert.frame_Kernel := fun m ρ _ => Cert.Kernel.Gen.frame m ρ

/-- The same for the kernel read on the extended reals. -/
theorem frame_kernel_ideal : Cert.frame_KernelIdeal := fun m ρ _ => Cert.KernelIdeal.Gen.frame m ρ

/-- The reference runs to its end and leaves its arguments as they were: its run, the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealization rewrote nothing: there is nothing to preserve. -/
theorem preserves : Cert.preserves_Kernel_KernelIdeal := trivial

/-- From memories that agree on the sixteen arguments the kernel ends with the specification's mean and deviation
    arrays of its arguments, the reference with the same two arrays of its own: equal, entry by entry. -/
theorem algebraic : Cert.algebraic_KernelIdeal_ReferenceIdeal := by
  intro m ρ m' ρ' _ hagree
  refine ⟨fun c => Cert.KernelIdeal.Blocks.meanOf m c, fun c => Cert.KernelIdeal.Blocks.devOf m c,
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨h0, h1, h2, h3, h4, h5, h6, h7, h8, h9, h10, h11, h12, h13, h14, h15⟩ := hagree c
    rw [Cert.ReferenceIdeal.ReadP.val_main_v71_eq, h0, h1, h2, h3, h4, h5, h6, h7, h8, h9, h10, h11]
    exact Cert.ReferenceIdeal.Rows.mean_eq _ _ _ _ _ _ _ _ _ _ _ _
  · obtain ⟨h0, h1, h2, h3, h4, h5, h6, h7, h8, h9, h10, h11, h12, h13, h14, h15⟩ := hagree c
    rw [Cert.ReferenceIdeal.ReadP.val_main_v68_eq, h0, h1, h2, h3, h4, h5, h6, h7, h8, h9, h12, h13, h14, h15]
    exact Cert.ReferenceIdeal.Rows.dev_eq _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
